-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x64x1 : Shape := ⟨3, ![4096, 64, 1]⟩
abbrev S4096 : Shape := ⟨1, ![4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x64x1 : S_.BroadcastsInDim S4096x64x1 (![] : Fin 0 → Fin S4096x64x1.rank)
  reducesTo_S4096x64x1_S_d0_1_2 : S4096x64x1.ReducesTo [0, 1, 2] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : FVec F S4096x64x1 .f32) (main_arg2 : FVec F S4096x64x1 .f32) (main_arg3 : FVec F S4096 .f32) (main_arg4 : FVec F S4096 .f32) (main_arg5 : FVec F S4096 .f32) (main_arg6 : IVec S4096x4096 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x64x1 .f32 := Host.absf main_arg1
  let main_cst_0 : FVec F S_ .f32 := constant S_ .f32 0x7F800000#32
  let main_v5 : FVec F S4096x64x1 .f32 := broadcastInDim S4096x64x1 ![] bcast_S_S4096x64x1 main_cst_0
  let main_v6 : IVec S4096x64x1 1 := cmpf .olt main_v4 main_v5
  let main_c_1 : IVec S_ 1 := constantI S_ 1 1#1
  let main_v7 : IVec S_ 1 := (fun x v => Host.reduce IntOp.andi x v reducesTo_S4096x64x1_S_d0_1_2 h_S_) main_v6 main_c_1
  let main_v8 : IVec S_ 1 := andi main_v3 main_v7
  let main_v9 : FVec F S4096x64x1 .f32 := Host.absf main_arg2
  let main_cst_2 : FVec F S_ .f32 := constant S_ .f32 0x7F800000#32
  let main_v10 : FVec F S4096x64x1 .f32 := broadcastInDim S4096x64x1 ![] bcast_S_S4096x64x1 main_cst_2
  let main_v11 : IVec S4096x64x1 1 := cmpf .olt main_v9 main_v10
  let main_c_3 : IVec S_ 1 := constantI S_ 1 1#1
  let main_v12 : IVec S_ 1 := (fun x v => Host.reduce IntOp.andi x v reducesTo_S4096x64x1_S_d0_1_2 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S4x2048x4096 : Shape := ⟨3, ![4, 2048, 4096]⟩
abbrev S4096x64x1 : Shape := ⟨3, ![4096, 64, 1]⟩
abbrev S4096 : Shape := ⟨1, ![4096]⟩
abbrev S4096x4096 : Shape := ⟨2, ![4096, 4096]⟩
abbrev S4096x64 : Shape := ⟨2, ![4096, 64]⟩
abbrev S4096x64x64 : Shape := ⟨3, ![4096, 64, 64]⟩
abbrev S1x4096 : Shape := ⟨2, ![1, 4096]⟩
abbrev S4096x1 : Shape := ⟨2, ![4096, 1]⟩
abbrev S512x1024 : Shape := ⟨2, ![512, 1024]⟩
abbrev S1x1024 : Shape := ⟨2, ![1, 1024]⟩
abbrev S512x1 : Shape := ⟨2, ![512, 1]⟩
abbrev S8192x4096 : Shape := ⟨2, ![8192, 4096]⟩
abbrev S512x512 : Shape := ⟨2, ![512, 512]⟩
abbrev S4096x512 : Shape := ⟨2, ![4096, 512]⟩
abbrev S512x4096 : Shape := ⟨2, ![512, 4096]⟩

abbrev nBuf : Space → Nat
  | .hbm => 20
  | .vmem => 19
  | .smem => 0
  | _ => 0

abbrev bufTy : (tb : Table) → Fin (tcTables nBuf tb) → BufTy
  | .hbm, ⟨0, _⟩ => ⟨S4x2048x4096, .f32⟩
  | .hbm, ⟨1, _⟩ => ⟨S4096x64x1, .f32⟩
  | .hbm, ⟨2, _⟩ => ⟨S4096x64x1, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x4096, .i32⟩
  | .hbm, ⟨7, _⟩ => ⟨S4096x64, .f32⟩
  | .hbm, ⟨8, _⟩ => ⟨S4096x64x64, .f32⟩
  | .hbm, ⟨9, _⟩ => ⟨S4096x4096, .f32⟩
  | .hbm, ⟨10, _⟩ => ⟨S4096x64, .f32⟩
  | .hbm, ⟨11, _⟩ => ⟨S4096x64x64, .f32⟩
  | .hbm, ⟨12, _⟩ => ⟨S4096x4096, .f32⟩
  | .hbm, ⟨13, _⟩ => ⟨S1x4096, .f32⟩
  | .hbm, ⟨14, _⟩ => ⟨S4096x1, .f32⟩
  | .hbm, ⟨15, _⟩ => ⟨S1x4096, .f32⟩
  | .hbm, ⟨16, _⟩ => ⟨S4096x4096, .bf16⟩
  | .hbm, ⟨17, _⟩ => ⟨S8192x4096, .f32⟩
  | .hbm, ⟨18, _⟩ => ⟨S8192x4096, .f32⟩
  | .hbm, ⟨19, _⟩ => ⟨S4x2048x4096, .f32⟩
  | .local _ .vmem, ⟨0, _⟩ => ⟨S512x1024, .i32⟩
  | .local _ .vmem, ⟨1, _⟩ => ⟨S512x1024, .i32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1, .f32⟩
  | .local _ .vmem, ⟨9, _⟩ => ⟨S512x1, .f32⟩
  | .local _ .vmem, ⟨10, _⟩ => ⟨S512x1024, .bf16⟩
  | .local _ .vmem, ⟨11, _⟩ => ⟨S512x1024, .bf16⟩
  | .local _ .vmem, ⟨12, _⟩ => ⟨S512x512, .f32⟩
  | .local _ .vmem, ⟨13, _⟩ => ⟨S512x512, .f32⟩
  | .local _ .vmem, ⟨14, _⟩ => ⟨S4096x512, .bf16⟩
  | .local _ .vmem, ⟨15, _⟩ => ⟨S4096x512, .bf16⟩
  | .local _ .vmem, ⟨16, _⟩ => ⟨S1x4096, .f32⟩
  | .local _ .vmem, ⟨17, _⟩ => ⟨S512x4096, .f32⟩
  | .local _ .vmem, ⟨18, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

class Facts₀ : Prop where
  shapeCasts_S4096x64x1_S4096x64 : S4096x64x1.ShapeCasts S4096x64
  bcast_S4096x64_S4096x64x64_0_1 : S4096x64.BroadcastsInDim S4096x64x64 (![0, 1] : Fin 2 → Fin S4096x64x64.rank)
  shapeCasts_S4096x64x64_S4096x4096 : S4096x64x64.ShapeCasts S4096x4096
  shapeCasts_S4096_S1x4096 : S4096.ShapeCasts S1x4096
  shapeCasts_S4096_S4096x1 : S4096.ShapeCasts S4096x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  shapeCasts_S8192x4096_S4x2048x4096 : S8192x4096.ShapeCasts S4x2048x4096
  dot_S512x512_S4096x512_S512x4096_1_1_0_0_n_n_wf : DotDims.WF S512x512 S4096x512 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .i32 = 32 ∨ (Rect.block (s := S4096x4096) S512x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x4096.size a
  hwx0_5 : ∀ i : grid0.Coords, EltTy.bits .bf16 = 32 ∨ (Rect.block (s := S4096x4096) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x4096.size a
  hwx1_0 : ∀ i : grid1.Coords, EltTy.bits .f32 = 32 ∨ (Rect.block (s := S8192x4096) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x4096.size a
  hwx1_1 : ∀ i : grid1.Coords, EltTy.bits .bf16 = 32 ∨ (Rect.block (s := S4096x4096) S4096x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x4096.size a ≤ S8192x4096.size a
  hwx1_3 : ∀ i : grid1.Coords, EltTy.bits .f32 = 32 ∨ (Rect.block (s := S8192x4096) S512x4096.size (cc1_transform_3 i) (hinb1_3 i)).WholeWords (EltTy.packing .f32)

variable [Facts₀]

def dot_S512x512_S4096x512_S512x4096_1_1_0_0_n_n : DotDims S512x512 S4096x512 S512x4096 where
  lhsContracting := [1]
  rhsContracting := [1]
  lhsNonContracting := [0]
  rhsNonContracting := [0]
  lhsBatch := []
  rhsBatch := []
  wf := dot_S512x512_S4096x512_S512x4096_1_1_0_0_n_n_wf

abbrev win0_0 : Pipeline.Window sig grid0 :=
  Pipeline.Window.ofSpec (Memref.whole main_arg6) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v10) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S512x4096.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x64x1 : Shape := ⟨3, ![4096, 64, 1]⟩
abbrev S4096 : Shape := ⟨1, ![4096]⟩
abbrev S4096x4096 : Shape := ⟨2, ![4096, 4096]⟩
abbrev S4096x64x64 : Shape := ⟨3, ![4096, 64, 64]⟩
abbrev S4096x1 : Shape := ⟨2, ![4096, 1]⟩
abbrev S1x4096 : Shape := ⟨2, ![1, 4096]⟩
abbrev S1x1x4096 : Shape := ⟨3, ![1, 1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x64x1, .f32⟩
  | .hbm, ⟨2, _⟩ => ⟨S4096x64x1, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x4096, .i32⟩
  | .hbm, ⟨7, _⟩ => ⟨S4096x4096, .f32⟩
  | .hbm, ⟨8, _⟩ => ⟨S4096x64x64, .f32⟩
  | .hbm, ⟨9, _⟩ => ⟨S4096x64x64, .f32⟩
  | .hbm, ⟨10, _⟩ => ⟨S4096x64x64, .f32⟩
  | .hbm, ⟨11, _⟩ => ⟨S4096x64x64, .f32⟩
  | .hbm, ⟨12, _⟩ => ⟨S4096x64x64, .f32⟩
  | .hbm, ⟨13, _⟩ => ⟨S4096x4096, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S4x2048x4096, .f32⟩
  | .hbm, ⟨21, _⟩ => ⟨S1x1x4096, .f32⟩
  | .hbm, ⟨22, _⟩ => ⟨S4x2048x4096, .f32⟩
  | .hbm, ⟨23, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  shapeCasts_S4096x4096_S4096x64x64 : S4096x4096.ShapeCasts S4096x64x64
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.BitsDequantBody.lean ====
/-
  The first pallas_call (the dequantising kernel) at one grid point, and its proof data.
  A point (i, j) of the 8 x 4 grid sees a 512 x 1024 tile of the quantised weights, of the spread-out scales and
  zero points, a 1 x 1024 strip of the column factors and a 512 x 1 strip of the row factors, and stores ONE
  512 x 1024 tile: ((q - zero) * scale) * rowFactor * colFactor, narrowed to bf16. The body reads nothing it wrote
  and keeps nothing between points, so what the output tile holds after the body is that one stored value, a
  function of the five input tiles alone.
-/
import proofs.«161157_j64330020159902_1_alg».proof.Proof.Gen.Kernel.Launch
import proofs.«161157_j64330020159902_1_alg».proof.Proof.Gen.Kernel.Skeleton
import proofs.«161157_j64330020159902_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Dequant

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents on entry to the region: a parameter, fixed by the run
variable (V : (c : Dev nD) → (b : Ref sig .tc) → Buf (Elt F) ((c : Thread nD τ).loc b))

/-- Window `w`'s tile at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile the body stores, from the five input tiles (window order: quantised weights, scales, zero points,
    column factors, row factors). -/
def tileOut (q : Vec F S512x1024 .i32) (sc zr : Vec F S512x1024 .f32) (m1 : Vec F S1x1024 .f32) (m2 : Vec F S512x1 .f32) :
    Vec F S512x1024 .bf16 :=
  k0_pay1 q zr sc m2 m1

/-- The proof data of the dequantising pipeline on core `c`: arrays as found; after the body every input tile is
    still its tile and the output tile is `tileOut` of them; the invariant is the class's (scoped rest and generator
    register untouched); nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => tileOut (iblk V c 0 t) (iblk V c 1 t) (iblk V c 2 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_out (c : Dev nD) (t : Fin cfg0.N) :
    (dat V c).after 5 t = tileOut (iblk V c 0 t) (iblk V c 1 t) (iblk V c 2 t) (iblk V c 3 t) (iblk V c 4 t) := by
  dsimp only [dat]

/-! ## What the body finds in each input window's buffer

An input tile is left in place by the body, so its buffer holds the window's tile at every point: where the pipeline
fetched it the fetch put it there, and where it did not (the row factors' column strip at the points that are not the
first of their row of tiles) the block index has not moved since the previous point and the tile is that point's. -/

/-- The quantised weights' buffer holds their tile at every point. -/
theorem before_0 (c : Dev nD) (t : Fin cfg0.N) (d) : (dat V c).before 0 t d = iblk V c 0 t :=
  ((dat V c).before_in_eq_fetched 0 rfl (fun _ => rfl) (fun _ _ _ => rfl)
    (fun t => by
      rw [show (dat V c).after 0 t = iblk V c 0 t by dsimp only [dat]]
      unfold Dat.blockOf iblk; rw [A_eq]; try rfl) t d).trans
    (by unfold Dat.fetched Dat.blockOf iblk; rw [A_eq]; try rfl)

/-- The scales' buffer holds their tile at every point. -/
theorem before_1 (c : Dev nD) (t : Fin cfg0.N) (d) : (dat V c).before 1 t d = iblk V c 1 t :=
  ((dat V c).before_in_eq_fetched 1 rfl (fun _ => rfl) (fun _ _ _ => rfl)
    (fun t => by
      rw [show (dat V c).after 1 t = iblk V c 1 t by dsimp only [dat]]
      unfold Dat.blockOf iblk; rw [A_eq]; try rfl) t d).trans
    (by unfold Dat.fetched Dat.blockOf iblk; rw [A_eq]; try rfl)

/-- The zero points' buffer holds their tile at every point. -/
theorem before_2 (c : Dev nD) (t : Fin cfg0.N) (d) : (dat V c).before 2 t d = iblk V c 2 t :=
  ((dat V c).before_in_eq_fetched 2 rfl (fun _ => rfl) (fun _ _ _ => rfl)
    (fun t => by
      rw [show (dat V c).after 2 t = iblk V c 2 t by dsimp only [dat]]
      unfold Dat.blockOf iblk; rw [A_eq]; try rfl) t d).trans
    (by unfold Dat.fetched Dat.blockOf iblk; rw [A_eq]; try rfl)

/-- The column factors' buffer holds their strip at every point. -/
theorem before_3 (c : Dev nD) (t : Fin cfg0.N) (d) : (dat V c).before 3 t d = iblk V c 3 t :=
  ((dat V c).before_in_eq_fetched 3 rfl (fun _ => rfl) (fun _ _ _ => rfl)
    (fun t => by
      rw [show (dat V c).after 3 t = iblk V c 3 t by dsimp only [dat]]
      unfold Dat.blockOf iblk; rw [A_eq]; try rfl) t d).trans
    (by unfold Dat.fetched Dat.blockOf iblk; rw [A_eq]; try rfl)

/-- The row factors' buffer holds their strip at every point, though it is fetched only at the first point of each
    row of tiles: along a row the strip's block index stays put. -/
theorem before_4 (c : Dev nD) (t : Fin cfg0.N) (d) : (dat V c).before 4 t d = iblk V c 4 t :=
  ((dat V c).before_in_eq_fetched 4 rfl (fun _ => rfl) (fun _ _ _ => rfl)
    (fun t => by
      rw [show (dat V c).after 4 t = iblk V c 4 t by dsimp only [dat]]
      unfold Dat.blockOf iblk; rw [A_eq]; try rfl) t d).trans
    (by unfold Dat.fetched Dat.blockOf iblk; rw [A_eq]; try rfl)

/-! ## The body's triple -/

/-- The offsets of every access of the body are zero. -/
theorem offs_zero : (![0, 0] : Fin 2 → ℕ) = fun _ => 0 :=
  funext fun a => by match a with | ⟨0, _⟩ => rfl | ⟨1, _⟩ => rfl

/-- The one store of the body covers the output tile: its rectangle is the whole tile. -/
theorem cover_out (p : Vec F S512x1024 .bf16) (y : S512x1024.Idx) :
    ∃ pc ∈ ([⟨Rect.unit (s := S512x1024) ![0, 0] S512x1024.size inb_S512x1024_S512x1024_0_0, p⟩] :
        List (View.Piece (Elt F) S512x1024 .bf16)), y ∈ pc.1.set :=
  ⟨_, List.mem_singleton_self _, View.mem_set_unit_zero offs_zero inb_S512x1024_S512x1024_0_0 y⟩

set_option maxHeartbeats 1000000 in
/-- The body on whole staging memrefs, the five inputs' at read contents `q sc zr m1 m2` and the output's at anything,
    runs to the continuation holding the inputs' as they were and the output's at `tileOut q sc zr m1 m2`: every load
    reads a whole buffer, and the one store covers the output buffer, so what it holds afterwards is the stored value. -/
theorem sound_kernel (c : Dev nD) (E : Set ℕ) (i : grid0.Coords)
    (arg2 : Memref sig .tc .vmem S512x1024 .i32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S1x1024 .f32) (harg5 : arg5.IsWhole)
    (arg6 : Memref sig .tc .vmem S512x1 .f32) (harg6 : arg6.IsWhole)
    (arg7 : Memref sig .tc .vmem S512x1024 .bf16) (harg7 : arg7.IsWhole)
    (q : Vec F S512x1024 .i32) (sc zr : Vec F S512x1024 .f32) (m1 : Vec F S1x1024 .f32) (m2 : Vec F S512x1 .f32)
    (K : PUnit → sProp 𝕄) :
    iprop(owns (c : Thread nD τ) arg2 fullShare q ∗ owns (c : Thread nD τ) arg3 fullShare sc
        ∗ owns (c : Thread nD τ) arg4 fullShare zr ∗ owns (c : Thread nD τ) arg5 fullShare m1
        ∗ owns (c : Thread nD τ) arg6 fullShare m2 ∗ (∃ d, owns (c : Thread nD τ) arg7 fullShare d)
        ∗ (iprop(owns (c : Thread nD τ) arg2 fullShare q ∗ owns (c : Thread nD τ) arg3 fullShare sc
            ∗ owns (c : Thread nD τ) arg4 fullShare zr ∗ owns (c : Thread nD τ) arg5 fullShare m1
            ∗ owns (c : Thread nD τ) arg6 fullShare m2
            ∗ owns (c : Thread nD τ) arg7 fullShare (tileOut q sc zr m1 m2)) -∗ K ⟨⟩))
      ⊢ wp frame (wpE (defs₀ (F := F)) Variants.none c none) E
          (cc0__dequant_kernel i arg2 harg2 arg3 harg3 arg4 harg4 arg5 harg5 arg6 harg6 arg7 harg7) K := by
  simp only [cc0__dequant_kernel_eq_skeleton]; unfold cc0__dequant_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf2 hf3 hf4 hf5 hf6
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover_out _), View.canon_unit_zero offs_zero]
  simp only [View.readAt_eq_ld, View.ld_unit_zero (S := S512x1024) offs_zero,
    View.ld_unit_zero (S := S1x1024) offs_zero, View.ld_unit_zero (S := S512x1) offs_zero]
  rfl

/-! ## The body obligation, at a generic point -/

/-- What the body is called with at point `t`: the invariant, what the core owes, and every window's current staging
    buffer at what it then holds, the windows one by one. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- What it returns: the same, every buffer at what the body leaves in it. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: each input's staging buffer holds its tile, so the body's triple applies at the five
    tiles; the invariant and what the core owes pass through untouched, and the output's buffer comes back at
    `tileOut` of the tiles. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    show (dat V c).after 0 t = iblk V c 0 t by dsimp only [dat],
    show (dat V c).after 1 t = iblk V c 1 t by dsimp only [dat],
    show (dat V c).after 2 t = iblk V c 2 t by dsimp only [dat],
    show (dat V c).after 3 t = iblk V c 3 t by dsimp only [dat],
    show (dat V c).after 4 t = iblk V c 4 t by dsimp only [dat],
    after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _
    (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Dequant

end
-- ==== Proof.BitsMatmulBody.lean ====
/-
  The second pallas_call (the blocked matrix product) at one grid point, and its proof data.
  Point (i, j) of the 16 x 8 grid sees a 512 x 512 tile of x, a 4096 x 512 strip of the bf16 weights, the whole
  bias row, and owns a 512 x 4096 accumulator kept in scratch from point to point. At j = 0 the accumulator is
  reset to zero; at every point it gains the product of the two tiles (contracted over the 512 columns); at j = 7
  the accumulator plus the bias row is stored to the output tile, which the pipeline then writes back.
  So the accumulator after point t is a recursion on t, restarted at the multiples of 8.
-/
import proofs.«161157_j64330020159902_1_alg».proof.Proof.Gen.Kernel.Launch
import proofs.«161157_j64330020159902_1_alg».proof.Proof.Gen.Kernel.Skeleton
import proofs.«161157_j64330020159902_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Matmul

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents on entry to the region: a parameter, fixed by the run
variable (V : (c : Dev nD) → (b : Ref sig .tc) → Buf (Elt F) ((c : Thread nD τ).loc b))

/-- Window `w`'s tile at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator (the scratch buffer) after the body at position `n`: the point's product added to zero at
    a multiple of 8, to what the point before left otherwise. -/
def accAt (c : Dev nD) : (n : ℕ) → n < cfg1.N → Vec F S512x4096 .f32
  | 0, hn => k1_pay2 (iblk V c 0 ⟨0, hn⟩) (iblk V c 1 ⟨0, hn⟩) (k1_pay1 (F := F))
  | n + 1, hn =>
    if (n + 1) % 8 = 0 then k1_pay2 (iblk V c 0 ⟨n + 1, hn⟩) (iblk V c 1 ⟨n + 1, hn⟩) (k1_pay1 (F := F))
    else k1_pay2 (iblk V c 0 ⟨n + 1, hn⟩) (iblk V c 1 ⟨n + 1, hn⟩) (accAt c n (Nat.lt_of_succ_lt hn))

/-- The output tile as stored at a last-of-eight point: the accumulator plus the bias row. (At the other points
    the output window is idle and not written back; nothing consults this there.) -/
def outAt (c : Dev nD) (t : Fin cfg1.N) : Vec F S512x4096 .f32 :=
  k1_pay3 (accAt V c t.val t.isLt) (iblk V c 2 t)

/-- The scratch accumulator as a whole memref. -/
abbrev accM : Memref sig .tc .vmem S512x4096 .f32 := Memref.whole cc1_scratch0

/-- The region invariant before position `n`: before the first point the class's (every scoped buffer at
    anything, the generator register at some state); afterwards the same with the accumulator at what the point
    before left in it. -/
def Phi (c : Dev nD) : (n : ℕ) → n ≤ cfg1.N → sProp 𝕄
  | 0, _ => Pipeline.ΦA spec1 c
  | n + 1, hn => iprop(owns (c : Thread nD τ) accM fullShare (accAt V c n hn)
      ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)
      ∗ (∃ r, prngReg c r))

/-- The proof data of the matrix-product pipeline on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem after_out (c : Dev nD) (t : Fin cfg1.N) : (dat V c).after 3 t = outAt V c t := by
  dsimp only [dat]

/-! ## The three shapes of a point

The two branch conditions read only the column-block coordinate j: the first holds at j = 0, the second at j = 7. -/

/-- The reset branch's condition, from the grid coordinates (the body's scalar chain substituted). -/
abbrev condFirst (i : grid1.Coords) : Prop :=
  (Scalar.cmpi .ne (Scalar.extui (Scalar.cmpi .eq (BitVec.ofNat 32 (i 1).val) 0#32)) 0#32) = 1#1
/-- The output branch's condition. -/
abbrev condLast (i : grid1.Coords) : Prop := k1_cond2 i = 1#1

/-- The reset branch is taken exactly at the points ≡ 0 (mod 8), -/
theorem hcondFirst : ∀ t : Fin cfg1.N, condFirst (grid1.coords t) ↔ t.val % 8 = 0 :=
  (by decide +kernel : ∀ t : Fin grid1.N, condFirst (grid1.coords t) ↔ t.val % 8 = 0)
/-- the output branch exactly at the points ≡ 7 (mod 8). -/
theorem hcondLast : ∀ t : Fin cfg1.N, condLast (grid1.coords t) ↔ t.val % 8 = 7 :=
  (by decide +kernel : ∀ t : Fin grid1.N, condLast (grid1.coords t) ↔ t.val % 8 = 7)

/-- The inputs are never idle; -/
theorem live_in (w : Fin cfg1.W) (hw : w.val < 3) (i : grid1.Coords) : cfg1.idle w i = false := by
  match w, hw with
  | ⟨0, _⟩, _ => rfl
  | ⟨1, _⟩, _ => rfl
  | ⟨2, _⟩, _ => rfl
/-- the output window is idle away from the output branch and not written back there, -/
theorem idle_out : ∀ t : Fin cfg1.N, ¬condLast (grid1.coords t) → cfg1.idle 3 (grid1.coords t) = true := by decide +kernel
theorem noFlush_out : ∀ t : Fin cfg1.N, ¬condLast (grid1.coords t) → (cfg1.win 3).flush t = false := by decide +kernel
/-- and live where the branch is taken. -/
theorem live_out : ∀ t : Fin cfg1.N, condLast (grid1.coords t) → cfg1.idle 3 (grid1.coords t) = false := by decide +kernel

/-- The accumulator's recursion at a reset point, -/
theorem accAt_first (c : Dev nD) (t : Fin cfg1.N) (h : t.val % 8 = 0) :
    accAt V c t.val t.isLt = k1_pay2 (iblk V c 0 t) (iblk V c 1 t) (k1_pay1 (F := F)) := by
  obtain ⟨n, hn⟩ := t
  cases n with
  | zero => rfl
  | succ n => exact if_pos h

/-- and at any other point, over what the point before left. -/
theorem accAt_next (c : Dev nD) (t : Fin cfg1.N) (h : ¬t.val % 8 = 0) :
    accAt V c t.val t.isLt
      = k1_pay2 (iblk V c 0 t) (iblk V c 1 t) (accAt V c (t.val - 1) (Nat.lt_of_le_of_lt (Nat.sub_le _ _) t.isLt)) := by
  obtain ⟨n, hn⟩ := t
  cases n with
  | zero => exact absurd (Nat.zero_mod _) h
  | succ n => exact if_neg h

/-! ## The body on whole memrefs, shape by shape -/

theorem hz2 : (![0, 0] : Fin 2 → Nat) = fun _ => 0 := by funext a; fin_cases a <;> rfl

/-- A store through the accumulator-sized rectangle at the origin covers the buffer, whatever was stored before. -/
theorem cover_acc (p0 : Vec F S512x4096 .f32) (L : List (View.Piece (Elt F) S512x4096 .f32)) (y : S512x4096.Idx) :
    ∃ pc ∈ ((⟨Rect.unit (s := S512x4096) ![0, 0] S512x4096.size inb_S512x4096_S512x4096_0_0, p0⟩ : View.Piece (Elt F) S512x4096 .f32) :: L), y ∈ pc.1.set := by
  obtain ⟨pc, hpc, hy⟩ := View.cover_of_tiled ([⟨Rect.unit (s := S512x4096) ![0, 0] S512x4096.size inb_S512x4096_S512x4096_0_0, p0⟩] : List (View.Piece (Elt F) S512x4096 .f32)) S512x4096.size (by rfl) y
  rw [List.mem_singleton] at hpc; subst hpc
  exact ⟨_, List.mem_cons.mpr (Or.inl rfl), hy⟩

set_option maxHeartbeats 2000000 in
/-- A reset point (j = 0): whatever the accumulator held, it ends at the tiles' product added to zero; the two tiles
    are left as found, the bias row and the output tile are not touched. -/
theorem run_first (c : Dev nD) (E : Set ℕ) (i : grid1.Coords)
    (arg2 : Memref sig .tc .vmem S512x512 .f32) (harg2 : arg2.IsWhole) (arg3 : Memref sig .tc .vmem S4096x512 .bf16) (harg3 : arg3.IsWhole)
    (arg4 : Memref sig .tc .vmem S1x4096 .f32) (harg4 : arg4.IsWhole) (arg5 : Memref sig .tc .vmem S512x4096 .f32) (harg5 : arg5.IsWhole)
    (arg6 : Memref sig .tc .vmem S512x4096 .f32) (harg6 : arg6.IsWhole)
    (hc0 : condFirst i) (hc1 : ¬condLast i)
    (x : Vec F S512x512 .f32) (w : Vec F S4096x512 .bf16) (K : PUnit → sProp 𝕄) :
    iprop(owns (c : Thread nD τ) arg2 fullShare x ∗ owns (c : Thread nD τ) arg3 fullShare w
        ∗ (∃ d, owns (c : Thread nD τ) arg6 fullShare d)
        ∗ (iprop(owns (c : Thread nD τ) arg2 fullShare x ∗ owns (c : Thread nD τ) arg3 fullShare w
            ∗ owns (c : Thread nD τ) arg6 fullShare (k1_pay2 x w (k1_pay1 (F := F)))) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f2, %hf2, H2⟩, ⟨%f3, %hf3, H3⟩, ⟨%d6, %f6, -, H6⟩, Hk⟩
  obtain rfl := harg2.eq_unread hf2; obtain rfl := harg3.eq_unread hf3
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  iexists _; isplitr
  swap; · iexact H6
  ipureintro
  sl_unfold_words
  rw [View.read_writes_eq_canon _ _ _ (cover_acc _ _), View.canon_cons_unit_zero hz2]
  simp only [View.readAt_eq_ld, harg2.read_unread, harg3.read_unread, View.ld_unit_zero (S := S512x512) hz2,
    View.ld_unit_zero (S := S4096x512) hz2, View.ld_unit_zero (S := S512x4096) hz2, View.readCov_unit_zero (S := S512x4096) _ hz2]

set_option maxHeartbeats 2000000 in
/-- A middle point (0 < j < 7): the accumulator gains the tiles' product. -/
theorem run_mid (c : Dev nD) (E : Set ℕ) (i : grid1.Coords)
    (arg2 : Memref sig .tc .vmem S512x512 .f32) (harg2 : arg2.IsWhole) (arg3 : Memref sig .tc .vmem S4096x512 .bf16) (harg3 : arg3.IsWhole)
    (arg4 : Memref sig .tc .vmem S1x4096 .f32) (harg4 : arg4.IsWhole) (arg5 : Memref sig .tc .vmem S512x4096 .f32) (harg5 : arg5.IsWhole)
    (arg6 : Memref sig .tc .vmem S512x4096 .f32) (harg6 : arg6.IsWhole)
    (hc0 : ¬condFirst i) (hc1 : ¬condLast i)
    (x : Vec F S512x512 .f32) (w : Vec F S4096x512 .bf16) (a : Vec F S512x4096 .f32) (K : PUnit → sProp 𝕄) :
    iprop(owns (c : Thread nD τ) arg2 fullShare x ∗ owns (c : Thread nD τ) arg3 fullShare w
        ∗ owns (c : Thread nD τ) arg6 fullShare a
        ∗ (iprop(owns (c : Thread nD τ) arg2 fullShare x ∗ owns (c : Thread nD τ) arg3 fullShare w
            ∗ owns (c : Thread nD τ) arg6 fullShare (k1_pay2 x w a)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f2, %hf2, H2⟩, ⟨%f3, %hf3, H3⟩, ⟨%f6, %hf6, H6⟩, Hk⟩
  obtain rfl := harg2.eq_unread hf2; obtain rfl := harg3.eq_unread hf3; obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  iexists _; isplitr
  swap; · iexact H6
  ipureintro
  sl_unfold_words
  rw [View.read_writes_eq_canon _ _ _ (cover_acc _ _), View.canon_cons_unit_zero hz2]
  simp only [View.readAt_eq_ld, harg2.read_unread, harg3.read_unread, harg6.read_unread, View.ld_unit_zero (S := S512x512) hz2,
    View.ld_unit_zero (S := S4096x512) hz2, View.ld_unit_zero (S := S512x4096) hz2]

set_option maxHeartbeats 2000000 in
/-- A last point (j = 7): the accumulator gains the tiles' product, and the output tile is stored as the new
    accumulator plus the bias row, whatever it held. -/
theorem run_last (c : Dev nD) (E : Set ℕ) (i : grid1.Coords)
    (arg2 : Memref sig .tc .vmem S512x512 .f32) (harg2 : arg2.IsWhole) (arg3 : Memref sig .tc .vmem S4096x512 .bf16) (harg3 : arg3.IsWhole)
    (arg4 : Memref sig .tc .vmem S1x4096 .f32) (harg4 : arg4.IsWhole) (arg5 : Memref sig .tc .vmem S512x4096 .f32) (harg5 : arg5.IsWhole)
    (arg6 : Memref sig .tc .vmem S512x4096 .f32) (harg6 : arg6.IsWhole)
    (hc0 : ¬condFirst i) (hc1 : condLast i)
    (x : Vec F S512x512 .f32) (w : Vec F S4096x512 .bf16) (b : Vec F S1x4096 .f32) (a : Vec F S512x4096 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d) ∗ owns (c : Thread nD τ) arg6 fullShare a
        ∗ (iprop(owns (c : Thread nD τ) arg2 fullShare x ∗ owns (c : Thread nD τ) arg3 fullShare w ∗ owns (c : Thread nD τ) arg4 fullShare b
            ∗ owns (c : Thread nD τ) arg5 fullShare (k1_pay3 (k1_pay2 x w a) b) ∗ owns (c : Thread nD τ) arg6 fullShare (k1_pay2 x w a)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4; obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_words
    rw [View.read_writes_eq_canon _ _ _ (cover_acc _ _), View.canon_unit_zero hz2]
    simp only [View.readAt_eq_ld, harg2.read_unread, harg3.read_unread, harg4.read_unread, harg6.read_unread,
      View.ld_unit_zero (S := S512x512) hz2, View.ld_unit_zero (S := S4096x512) hz2, View.ld_unit_zero (S := S1x4096) hz2,
      View.ld_unit_zero (S := S512x4096) hz2, View.readCov_unit_zero (S := S512x4096) _ hz2]
  · iexists _; isplitr
    swap; · iexact H6
    ipureintro
    sl_unfold_words
    rw [View.read_writes_eq_canon _ _ _ (cover_acc _ _), View.canon_cons_unit_zero hz2]
    simp only [View.readAt_eq_ld, harg2.read_unread, harg3.read_unread, harg6.read_unread, View.ld_unit_zero (S := S512x512) hz2,
      View.ld_unit_zero (S := S4096x512) hz2, View.ld_unit_zero (S := S512x4096) hz2]

/-! ## The invariant, opened and closed -/

/-- What rides beside the accumulator in the invariant: the first call's twelve staging buffers (scoped, idle in
    this region) at anything, and the generator register at some state. -/
def Rest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)
      ∗ (∃ r, prngReg c r))

/-- After position `n` the invariant is the accumulator at that position's contents beside the rest. -/
theorem Phi_succ (c : Dev nD) (n : ℕ) (hn : n < cfg1.N) :
    Phi V c (n + 1) hn = iprop(owns (c : Thread nD τ) accM fullShare (accAt V c n hn) ∗ Rest (F := F) c) := rfl

/-- Before a position that is not the first: the accumulator at what the position before left. -/
theorem Phi_pos (c : Dev nD) (n : ℕ) (h : n ≤ cfg1.N) (hz : n ≠ 0) :
    Phi V c n h = iprop(owns (c : Thread nD τ) accM fullShare (accAt V c (n - 1) (by omega)) ∗ Rest (F := F) c) := by
  cases n with
  | zero => exact absurd rfl hz
  | succ n => rfl

/-- The class's invariant is the accumulator at anything beside the rest: the scoped buffers no window of this call
    stages are exactly those twelve and the accumulator. -/
theorem PhiA_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)
          ∗ (∃ d, owns (c : Thread nD τ) accM fullShare d)) ∗ (∃ r, prngReg c r)) := by
  unfold Pipeline.ΦA; rw [scopedRest1_eq]; simp only [accM, owns_whole]; try rfl

theorem PhiA_open (c : Dev nD) :
    (Pipeline.ΦA spec1 c : sProp 𝕄) ⊢ iprop((∃ d, owns (c : Thread nD τ) accM fullShare d) ∗ Rest (F := F) c) := by
  rw [PhiA_eq]; unfold Rest
  iintro ⟨⟨R0, R1, R2, R3, R4, R5, R6, R7, R8, R9, R10, R11, HS⟩, HP⟩
  isplitl [HS]; · iexact HS
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iexact HP

theorem PhiA_close (c : Dev nD) :
    iprop((∃ d, owns (c : Thread nD τ) accM fullShare d) ∗ Rest (F := F) c) ⊢ (Pipeline.ΦA spec1 c : sProp 𝕄) := by
  rw [PhiA_eq]; unfold Rest
  iintro ⟨HS, R0, R1, R2, R3, R4, R5, R6, R7, R8, R9, R10, R11, HP⟩
  isplitr [HP]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexact HS
  · iexact HP

/-- Before any position the invariant yields the accumulator at something beside the rest. -/
theorem Phi_open (c : Dev nD) (n : ℕ) (h : n ≤ cfg1.N) :
    Phi V c n h ⊢ iprop((∃ d, owns (c : Thread nD τ) accM fullShare d) ∗ Rest (F := F) c) := by
  cases n with
  | zero => exact PhiA_open c
  | succ n =>
    rw [Phi_succ]
    iintro ⟨HS, HR⟩
    isplitl [HS]; · iexists _; iexact HS
    iexact HR

theorem Phi_castSucc (c : Dev nD) (t : Fin cfg1.N) :
    (dat V c).Φ t.castSucc = Phi V c t.val (Nat.le_of_lt t.isLt) := rfl

/-! ## The body obligation -/

/-- An input window's current staging buffer holds its tile at every point, fetched there or not: unfetched, the
    index has not moved and the body left the tile in place. -/
theorem before_0 (c : Dev nD) (t : Fin cfg1.N) (d) : (dat V c).before 0 t d = iblk V c 0 t :=
  ((dat V c).before_in_eq_fetched 0 rfl (fun _ => rfl) (fun _ _ _ => rfl)
    (fun t => by rw [show (dat V c).after 0 t = iblk V c 0 t from by dsimp only [dat]]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [show (dat V c).after 1 t = iblk V c 1 t from by dsimp only [dat]]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [show (dat V c).after 2 t = iblk V c 2 t from by dsimp only [dat]]; unfold Dat.blockOf iblk; rw [A_eq]; try rfl) t d).trans
    (by unfold Dat.fetched Dat.blockOf iblk; rw [A_eq]; try rfl)

/-- What the body owes of an input window's buffer after the point: the tile, as found. -/
theorem leaves_0 (c : Dev nD) (t : Fin cfg1.N) :
    (dat V c).leavesExact 0 t = owns (c : Thread nD τ) (st1_0 t) fullShare (iblk V c 0 t) := by
  unfold Dat.leavesExact; rw [live_in 0 (by decide)]; dsimp only [dat]
theorem leaves_1 (c : Dev nD) (t : Fin cfg1.N) :
    (dat V c).leavesExact 1 t = owns (c : Thread nD τ) (st1_1 t) fullShare (iblk V c 1 t) := by
  unfold Dat.leavesExact; rw [live_in 1 (by decide)]; dsimp only [dat]
theorem leaves_2 (c : Dev nD) (t : Fin cfg1.N) :
    (dat V c).leavesExact 2 t = owns (c : Thread nD τ) (st1_2 t) fullShare (iblk V c 2 t) := by
  unfold Dat.leavesExact; rw [live_in 2 (by decide)]; dsimp only [dat]

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4000000 in
/-- The body at any point. The inputs' buffers hold their tiles; the point's residue mod 8 says which of the three
    shapes it has; the invariant hands the body the accumulator at what the point before left (at anything where it
    is about to be reset) and takes it back at this point's contents; the output tile is stored at the last of
    eight and handed back untouched elsewhere; nothing is owed throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl,
    show (dat V c).Φ t.succ = Phi V c (t.val + 1) t.isLt from rfl, Phi_succ, Phi_castSucc,
    leaves_0, leaves_1, leaves_2]
  have hN : t.val < 128 := lt_of_lt_of_eq t.isLt (show cfg1.N = 128 from N_1)
  by_cases h0 : t.val % 8 = 0
  · have hc0 : condFirst (grid1.coords t) := (hcondFirst t).mpr h0
    have hc1 : ¬condLast (grid1.coords t) := fun h => by have := (hcondLast t).mp h; omega
    rw [Dat.leavesExact_idle (dat V c) 3 t (idle_out t hc1) (noFlush_out t hc1), accAt_first V c t h0]
    have hopen := Phi_open V c t.val (Nat.le_of_lt t.isLt)
    iintro ⟨HPhi, Ho, ⟨%d0, H0⟩, ⟨%d1, H1⟩, ⟨%d2, H2⟩, H3⟩
    ihave HP2 := hopen $$ HPhi
    icases HP2 with ⟨HS, HR⟩
    iapply (run_first c Set.univ (grid1.coords t) _ _ _ _ _ _ _ _ _ _ hc0 hc1 (iblk V c 0 t) (iblk V c 1 t) _)
    isplitl [H0]; · iexact H0
    isplitl [H1]; · iexact H1
    isplitl [HS]; · iexact HS
    iintro ⟨H0, H1, HS⟩
    isplitl [HS HR]
    · isplitl [HS]; · iexact HS
      iexact HR
    isplitl [Ho]; · iexact Ho
    isplitl [H0]; · iexact H0
    isplitl [H1]; · iexact H1
    isplitl [H2]; · iexact H2
    iexact H3
  · have hc0 : ¬condFirst (grid1.coords t) := fun h => h0 ((hcondFirst t).mp h)
    have hz : t.val ≠ 0 := fun h => h0 (by rw [h])
    rw [Phi_pos V c t.val _ hz, accAt_next V c t h0]
    by_cases h1 : t.val % 8 = 7
    · have hc1 : condLast (grid1.coords t) := (hcondLast t).mpr h1
      rw [show (dat V c).leavesExact 3 t = owns (c : Thread nD τ) (st1_3 t) fullShare ((dat V c).after 3 t) from by
        unfold Dat.leavesExact; rw [live_out t hc1], after_out]
      unfold outAt
      rw [accAt_next V c t h0]
      iintro ⟨⟨HS, HR⟩, Ho, ⟨%d0, H0⟩, ⟨%d1, H1⟩, ⟨%d2, H2⟩, ⟨%d3, H3⟩⟩
      iapply (run_last c Set.univ (grid1.coords t) _ _ _ _ _ _ _ _ _ _ hc0 hc1 (iblk V c 0 t) (iblk V c 1 t) (iblk V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexact H3
    · have hc1 : ¬condLast (grid1.coords t) := fun h => h1 ((hcondLast t).mp h)
      rw [Dat.leavesExact_idle (dat V c) 3 t (idle_out t hc1) (noFlush_out t hc1)]
      iintro ⟨⟨HS, HR⟩, Ho, ⟨%d0, H0⟩, ⟨%d1, H1⟩, ⟨%d2, H2⟩, H3⟩
      iapply (run_mid c Set.univ (grid1.coords t) _ _ _ _ _ _ _ _ _ _ hc0 hc1 (iblk V c 0 t) (iblk V c 1 t) _ _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      isplitl [H2]; · iexact H2
      iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 :=
  Idealize.SL.BI.Entails.refl _

/-- After the last point the invariant gives the class's back: the accumulator's contents are forgotten. -/
theorem hout (c : Dev nD) : (dat V c).Φ (Fin.last cfg1.N) ⊢ Pipeline.ΦA spec1 c :=
  (show (dat V c).Φ (Fin.last cfg1.N) ⊢ iprop((∃ d, owns (c : Thread nD τ) accM fullShare d) ∗ Rest (F := F) c) from
    Phi_open V c (Fin.last cfg1.N).val (Nat.le_of_lt_succ (Fin.last cfg1.N).isLt)).trans (PhiA_close c)

end Cert.Kernel.Matmul

end
-- ==== Proof.BitsMainRun.lean ====
/-
  The whole run of the program: nine host reshapes and broadcasts, the dequantising call, one reshape, the blocked
  matrix product, one reshape. The contents of every unscoped buffer are followed from the launch memory through
  the five stretches; the run ends with every such buffer at the last valuation, from which both the frame (no
  argument is ever written) and the result buffer's contents are read.
-/
import proofs.«161157_j64330020159902_1_alg».proof.Proof.Gen.Kernel.Launch
import proofs.«161157_j64330020159902_1_alg».proof.Proof.Gen.Kernel.Skeleton
import proofs.«161157_j64330020159902_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«161157_j64330020159902_1_alg».proof.Proof.BitsDequantBody
import proofs.«161157_j64330020159902_1_alg».proof.Proof.BitsMatmulBody
set_option maxRecDepth 16384

noncomputable section

namespace Cert.Kernel.MainRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m (c, b)
/-- After the nine host operations before the first call. -/
abbrev W1 : Dev nD → Valuation τ sig (Elt F) := fun c => StableHlo.after hostOps0 (W0 m c)
/-- The same read at the TensorCore's references: what the first call's proof data take. -/
abbrev V1 : (c : Dev nD) → (b : Ref sig .tc) → Buf (Elt F) ((c : Thread nD τ).loc b) := fun c b => W1 m c b
/-- After the first call: its arrays at what the write-backs leave, every other buffer as entered. -/
def W2 (c : Dev nD) : Valuation τ sig (Elt F) :=
  Pipeline.withArrays spec0 c (W1 m c) fun w => (Dequant.dat (V1 m) c).arrAt w cfg0.N
/-- After the reshape of x. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second call. -/
def W4 (c : Dev nD) : Valuation τ sig (Elt F) :=
  Pipeline.withArrays spec1 c (W3 m c) fun w => (Matmul.dat (V3 m) c).arrAt w cfg1.N
/-- After the closing reshape. -/
abbrev W5 : Dev nD → Valuation τ sig (Elt F) := fun c => StableHlo.after hostOps2 (W4 m c)

theorem W2_arr (c : Dev nD) (w : Fin cfg0.W) :
    W2 m c (Proc.devRef .tc (Pipeline.arrRef spec0 w)) = (Dequant.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (Matmul.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-- No host operation and no call writes an argument: read through the five stretches it is the launch memory's. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_forall_not_mem (b := Proc.devRef .tc main_arg2) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_forall_not_mem (b := Proc.devRef .tc main_arg3) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_forall_not_mem (b := Proc.devRef .tc main_arg4) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_forall_not_mem (b := Proc.devRef .tc main_arg5) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m c (Proc.devRef .tc main_arg5) := W4_of_ne m c main_arg5 (by decide)
    _ = W2 m c (Proc.devRef .tc main_arg5) := StableHlo.after_of_forall_not_mem (b := Proc.devRef .tc main_arg5) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_forall_not_mem (b := Proc.devRef .tc main_arg6) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m c (Proc.devRef .tc main_arg6) := W4_of_ne m c main_arg6 (by decide)
    _ = W2 m c (Proc.devRef .tc main_arg6) := StableHlo.after_of_forall_not_mem (b := Proc.devRef .tc main_arg6) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg6) := (W2_arr m c 0).trans (((Dequant.dat (V1 m) c).arrAt_in 0 rfl _).trans (Dequant.A_eq (V1 m) c 0))
    _ = W0 m c (Proc.devRef .tc main_arg6) := StableHlo.after_of_forall_not_mem (b := Proc.devRef .tc main_arg6) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg6) := rfl

/-! ## The proof data of both pipelines and the thread state between two stretches -/

/-- The prefetched tables' admissible contents: neither pipeline has a table. -/
abbrev adm : (p : Fin 2) → (pcfgs (F := F) p).Adm := fun p => (cfgs p).toPCfg_adm
/-- Both pipelines' proof data, each at the contents its call is entered with. A literal match on the pipeline's
    number, so that a numeral reduces to the printed configuration. -/
def pdats : (p : Fin 2) → (c : Dev nD) → Dat τ (Elt F) Unit ℕ (UR sig nD τ) ℕ (Pipeline.pin (pcfgs (F := F)) adm p) c
  | ⟨0, _⟩ => fun c => Dequant.dat (V1 m) c
  | ⟨1, _⟩ => fun c => Matmul.dat (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the core's generator register at some state, and the core
    owing nothing. -/
abbrev R (c : Dev nD) : sProp 𝕄 := iprop((∃ r, prngReg c r) ∗ ∃ W, owes (c : Thread nD τ) (0 : CellTallies nD τ sig Unit) W)
/-- A stretch of host operations over the unscoped buffers from the contents `W`: it ends with those buffers at
    `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The contents at each call's exit, read at the TensorCore's references. -/
abbrev V2 : (c : Dev nD) → (b : Ref sig .tc) → Buf (Elt F) ((c : Thread nD τ).loc b) := fun c b => W2 m c b
abbrev V4 : (c : Dev nD) → (b : Ref sig .tc) → Buf (Elt F) ((c : Thread nD τ).loc b) := fun c b => W4 m c b
/-- At a call's exit each of its arrays holds what the write-backs leave and every other buffer what it held at
    entry. -/
theorem hF0 (c : Dev nD) (w : Fin cfg0.W) : (Dequant.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (Matmul.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- The last thread state without what the core owes: every unscoped buffer at the last contents, the generator
    register at some state. -/
abbrev Tₙ (c : Dev nD) : sProp 𝕄 := iprop(StableHlo.held (c : Thread nD τ) (Pipeline.ucRefs τ sig) (W5 m c) ∗ ∃ r, prngReg c r)
/-- What the closing stretch leaves is the last thread state beside the core owing nothing: a regrouping. -/
theorem last_link (c : Dev nD) :
    iprop(StableHlo.held (c : Thread nD τ) (Pipeline.ucRefs τ sig) (W5 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh] <;> iassumption
  iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two calls as segments of the run -/

set_option backward.isDefEq.respectTransparency.types false in
/-- THE DEQUANTISING CALL over the thread state: entered with every unscoped buffer at `W1`, left at `W2`. Its six
    arrays are split out of the unscoped buffers and put back at what the write-backs leave; the generator register
    goes into the class invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dequant.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE MATRIX PRODUCT over the thread state: entered with every unscoped buffer at `W3`, left at `W4`. Its
    invariant is its own (the accumulator's contents are carried from point to point): before the first point it is
    made from the class invariant, after the last point it gives the class invariant back, the accumulator forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Matmul.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact hA.trans (Matmul.hin (V3 m) c)
  hout c := by
    rw [Pipeline.ownSems0_none]
    have hA : (Pipeline.ΦA spec1 c : sProp 𝕄) ⊢ iprop((∃ r, prngReg c r) ∗ emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (Matmul.hout (V3 m) c).trans hA
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run as five segments, and the launch -/

/-- The five segments in order: a host segment per stretch from its boundary's contents, a region per call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- The program is the run of the segments. -/
theorem main_run (c : Dev nD) : main (F := F) c = Pipeline.Seg.run (segs m) := (main_chain c).trans (by chain_rfl)

set_option backward.isDefEq.respectTransparency.types false in
/-- THE RUN. From any memory with zero counters every weakly fair execution of the program terminates without a
    fault, and in every final state each unscoped buffer of each core holds the last valuation's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

end Cert.Kernel.MainRun

end
-- ==== Proof.DequantBody.lean ====
/-
  The first pallas_call (the dequantising kernel) at one grid point, and its proof data.
  A point (i, j) of the 8 x 4 grid sees a 512 x 1024 tile of the quantised weights, of the spread-out scales and
  zero points, a 1 x 1024 strip of the column factors and a 512 x 1 strip of the row factors, and stores ONE
  512 x 1024 tile: ((q - zero) * scale) * rowFactor * colFactor, narrowed to bf16. The body reads nothing it wrote
  and keeps nothing between points, so what the output tile holds after the body is that one stored value, a
  function of the five input tiles alone.
-/
import proofs.«161157_j64330020159902_1_alg».proof.Proof.Gen.KernelIdeal.Launch
import proofs.«161157_j64330020159902_1_alg».proof.Proof.Gen.KernelIdeal.Skeleton
import proofs.«161157_j64330020159902_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Dequant

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents on entry to the region: a parameter, fixed by the run
variable (V : (c : Dev nD) → (b : Ref sig .tc) → Buf (Elt F) ((c : Thread nD τ).loc b))

/-- Window `w`'s tile at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile the body stores, from the five input tiles (window order: quantised weights, scales, zero points,
    column factors, row factors). -/
def tileOut (q : Vec F S512x1024 .i32) (sc zr : Vec F S512x1024 .f32) (m1 : Vec F S1x1024 .f32) (m2 : Vec F S512x1 .f32) :
    Vec F S512x1024 .bf16 :=
  k0_pay1 q zr sc m2 m1

/-- The proof data of the dequantising pipeline on core `c`: arrays as found; after the body every input tile is
    still its tile and the output tile is `tileOut` of them; the invariant is the class's (scoped rest and generator
    register untouched); nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => tileOut (iblk V c 0 t) (iblk V c 1 t) (iblk V c 2 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_out (c : Dev nD) (t : Fin cfg0.N) :
    (dat V c).after 5 t = tileOut (iblk V c 0 t) (iblk V c 1 t) (iblk V c 2 t) (iblk V c 3 t) (iblk V c 4 t) := by
  dsimp only [dat]

/-! ## What the body finds in each input window's buffer

An input tile is left in place by the body, so its buffer holds the window's tile at every point: where the pipeline
fetched it the fetch put it there, and where it did not (the row factors' column strip at the points that are not the
first of their row of tiles) the block index has not moved since the previous point and the tile is that point's. -/

/-- The quantised weights' buffer holds their tile at every point. -/
theorem before_0 (c : Dev nD) (t : Fin cfg0.N) (d) : (dat V c).before 0 t d = iblk V c 0 t :=
  ((dat V c).before_in_eq_fetched 0 rfl (fun _ => rfl) (fun _ _ _ => rfl)
    (fun t => by
      rw [show (dat V c).after 0 t = iblk V c 0 t by dsimp only [dat]]
      unfold Dat.blockOf iblk; rw [A_eq]; try rfl) t d).trans
    (by unfold Dat.fetched Dat.blockOf iblk; rw [A_eq]; try rfl)

/-- The scales' buffer holds their tile at every point. -/
theorem before_1 (c : Dev nD) (t : Fin cfg0.N) (d) : (dat V c).before 1 t d = iblk V c 1 t :=
  ((dat V c).before_in_eq_fetched 1 rfl (fun _ => rfl) (fun _ _ _ => rfl)
    (fun t => by
      rw [show (dat V c).after 1 t = iblk V c 1 t by dsimp only [dat]]
      unfold Dat.blockOf iblk; rw [A_eq]; try rfl) t d).trans
    (by unfold Dat.fetched Dat.blockOf iblk; rw [A_eq]; try rfl)

/-- The zero points' buffer holds their tile at every point. -/
theorem before_2 (c : Dev nD) (t : Fin cfg0.N) (d) : (dat V c).before 2 t d = iblk V c 2 t :=
  ((dat V c).before_in_eq_fetched 2 rfl (fun _ => rfl) (fun _ _ _ => rfl)
    (fun t => by
      rw [show (dat V c).after 2 t = iblk V c 2 t by dsimp only [dat]]
      unfold Dat.blockOf iblk; rw [A_eq]; try rfl) t d).trans
    (by unfold Dat.fetched Dat.blockOf iblk; rw [A_eq]; try rfl)

/-- The column factors' buffer holds their strip at every point. -/
theorem before_3 (c : Dev nD) (t : Fin cfg0.N) (d) : (dat V c).before 3 t d = iblk V c 3 t :=
  ((dat V c).before_in_eq_fetched 3 rfl (fun _ => rfl) (fun _ _ _ => rfl)
    (fun t => by
      rw [show (dat V c).after 3 t = iblk V c 3 t by dsimp only [dat]]
      unfold Dat.blockOf iblk; rw [A_eq]; try rfl) t d).trans
    (by unfold Dat.fetched Dat.blockOf iblk; rw [A_eq]; try rfl)

/-- The row factors' buffer holds their strip at every point, though it is fetched only at the first point of each
    row of tiles: along a row the strip's block index stays put. -/
theorem before_4 (c : Dev nD) (t : Fin cfg0.N) (d) : (dat V c).before 4 t d = iblk V c 4 t :=
  ((dat V c).before_in_eq_fetched 4 rfl (fun _ => rfl) (fun _ _ _ => rfl)
    (fun t => by
      rw [show (dat V c).after 4 t = iblk V c 4 t by dsimp only [dat]]
      unfold Dat.blockOf iblk; rw [A_eq]; try rfl) t d).trans
    (by unfold Dat.fetched Dat.blockOf iblk; rw [A_eq]; try rfl)

/-! ## The body's triple -/

/-- The offsets of every access of the body are zero. -/
theorem offs_zero : (![0, 0] : Fin 2 → ℕ) = fun _ => 0 :=
  funext fun a => by match a with | ⟨0, _⟩ => rfl | ⟨1, _⟩ => rfl

/-- The one store of the body covers the output tile: its rectangle is the whole tile. -/
theorem cover_out (p : Vec F S512x1024 .bf16) (y : S512x1024.Idx) :
    ∃ pc ∈ ([⟨Rect.unit (s := S512x1024) ![0, 0] S512x1024.size inb_S512x1024_S512x1024_0_0, p⟩] :
        List (View.Piece (Elt F) S512x1024 .bf16)), y ∈ pc.1.set :=
  ⟨_, List.mem_singleton_self _, View.mem_set_unit_zero offs_zero inb_S512x1024_S512x1024_0_0 y⟩

set_option maxHeartbeats 1000000 in
/-- The body on whole staging memrefs, the five inputs' at read contents `q sc zr m1 m2` and the output's at anything,
    runs to the continuation holding the inputs' as they were and the output's at `tileOut q sc zr m1 m2`: every load
    reads a whole buffer, and the one store covers the output buffer, so what it holds afterwards is the stored value. -/
theorem sound_kernel (c : Dev nD) (E : Set ℕ) (i : grid0.Coords)
    (arg2 : Memref sig .tc .vmem S512x1024 .i32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S1x1024 .f32) (harg5 : arg5.IsWhole)
    (arg6 : Memref sig .tc .vmem S512x1 .f32) (harg6 : arg6.IsWhole)
    (arg7 : Memref sig .tc .vmem S512x1024 .bf16) (harg7 : arg7.IsWhole)
    (q : Vec F S512x1024 .i32) (sc zr : Vec F S512x1024 .f32) (m1 : Vec F S1x1024 .f32) (m2 : Vec F S512x1 .f32)
    (K : PUnit → sProp 𝕄) :
    iprop(owns (c : Thread nD τ) arg2 fullShare q ∗ owns (c : Thread nD τ) arg3 fullShare sc
        ∗ owns (c : Thread nD τ) arg4 fullShare zr ∗ owns (c : Thread nD τ) arg5 fullShare m1
        ∗ owns (c : Thread nD τ) arg6 fullShare m2 ∗ (∃ d, owns (c : Thread nD τ) arg7 fullShare d)
        ∗ (iprop(owns (c : Thread nD τ) arg2 fullShare q ∗ owns (c : Thread nD τ) arg3 fullShare sc
            ∗ owns (c : Thread nD τ) arg4 fullShare zr ∗ owns (c : Thread nD τ) arg5 fullShare m1
            ∗ owns (c : Thread nD τ) arg6 fullShare m2
            ∗ owns (c : Thread nD τ) arg7 fullShare (tileOut q sc zr m1 m2)) -∗ K ⟨⟩))
      ⊢ wp frame (wpE (defs₀ (F := F)) Variants.none c none) E
          (cc0__dequant_kernel i arg2 harg2 arg3 harg3 arg4 harg4 arg5 harg5 arg6 harg6 arg7 harg7) K := by
  simp only [cc0__dequant_kernel_eq_skeleton]; unfold cc0__dequant_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf2 hf3 hf4 hf5 hf6
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover_out _), View.canon_unit_zero offs_zero]
  simp only [View.readAt_eq_ld, View.ld_unit_zero (S := S512x1024) offs_zero,
    View.ld_unit_zero (S := S1x1024) offs_zero, View.ld_unit_zero (S := S512x1) offs_zero]
  rfl

/-! ## The body obligation, at a generic point -/

/-- What the body is called with at point `t`: the invariant, what the core owes, and every window's current staging
    buffer at what it then holds, the windows one by one. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- What it returns: the same, every buffer at what the body leaves in it. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: each input's staging buffer holds its tile, so the body's triple applies at the five
    tiles; the invariant and what the core owes pass through untouched, and the output's buffer comes back at
    `tileOut` of the tiles. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    show (dat V c).after 0 t = iblk V c 0 t by dsimp only [dat],
    show (dat V c).after 1 t = iblk V c 1 t by dsimp only [dat],
    show (dat V c).after 2 t = iblk V c 2 t by dsimp only [dat],
    show (dat V c).after 3 t = iblk V c 3 t by dsimp only [dat],
    show (dat V c).after 4 t = iblk V c 4 t by dsimp only [dat],
    after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _
    (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Dequant

end
-- ==== Proof.MatmulBody.lean ====
/-
  The second pallas_call (the blocked matrix product) at one grid point, and its proof data.
  Point (i, j) of the 16 x 8 grid sees a 512 x 512 tile of x, a 4096 x 512 strip of the bf16 weights, the whole
  bias row, and owns a 512 x 4096 accumulator kept in scratch from point to point. At j = 0 the accumulator is
  reset to zero; at every point it gains the product of the two tiles (contracted over the 512 columns); at j = 7
  the accumulator plus the bias row is stored to the output tile, which the pipeline then writes back.
  So the accumulator after point t is a recursion on t, restarted at the multiples of 8.
-/
import proofs.«161157_j64330020159902_1_alg».proof.Proof.Gen.KernelIdeal.Launch
import proofs.«161157_j64330020159902_1_alg».proof.Proof.Gen.KernelIdeal.Skeleton
import proofs.«161157_j64330020159902_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Matmul

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents on entry to the region: a parameter, fixed by the run
variable (V : (c : Dev nD) → (b : Ref sig .tc) → Buf (Elt F) ((c : Thread nD τ).loc b))

/-- Window `w`'s tile at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator (the scratch buffer) after the body at position `n`: the point's product added to zero at
    a multiple of 8, to what the point before left otherwise. -/
def accAt (c : Dev nD) : (n : ℕ) → n < cfg1.N → Vec F S512x4096 .f32
  | 0, hn => k1_pay2 (iblk V c 0 ⟨0, hn⟩) (iblk V c 1 ⟨0, hn⟩) (k1_pay1 (F := F))
  | n + 1, hn =>
    if (n + 1) % 8 = 0 then k1_pay2 (iblk V c 0 ⟨n + 1, hn⟩) (iblk V c 1 ⟨n + 1, hn⟩) (k1_pay1 (F := F))
    else k1_pay2 (iblk V c 0 ⟨n + 1, hn⟩) (iblk V c 1 ⟨n + 1, hn⟩) (accAt c n (Nat.lt_of_succ_lt hn))

/-- The output tile as stored at a last-of-eight point: the accumulator plus the bias row. (At the other points
    the output window is idle and not written back; nothing consults this there.) -/
def outAt (c : Dev nD) (t : Fin cfg1.N) : Vec F S512x4096 .f32 :=
  k1_pay3 (accAt V c t.val t.isLt) (iblk V c 2 t)

/-- The scratch accumulator as a whole memref. -/
abbrev accM : Memref sig .tc .vmem S512x4096 .f32 := Memref.whole cc1_scratch0

/-- The region invariant before position `n`: before the first point the class's (every scoped buffer at
    anything, the generator register at some state); afterwards the same with the accumulator at what the point
    before left in it. -/
def Phi (c : Dev nD) : (n : ℕ) → n ≤ cfg1.N → sProp 𝕄
  | 0, _ => Pipeline.ΦA spec1 c
  | n + 1, hn => iprop(owns (c : Thread nD τ) accM fullShare (accAt V c n hn)
      ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)
      ∗ (∃ r, prngReg c r))

/-- The proof data of the matrix-product pipeline on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]

theorem after_out (c : Dev nD) (t : Fin cfg1.N) : (dat V c).after 3 t = outAt V c t := by
  dsimp only [dat]

/-! ## The three shapes of a point

The two branch conditions read only the column-block coordinate j: the first holds at j = 0, the second at j = 7. -/

/-- The reset branch's condition, from the grid coordinates (the body's scalar chain substituted). -/
abbrev condFirst (i : grid1.Coords) : Prop :=
  (Scalar.cmpi .ne (Scalar.extui (Scalar.cmpi .eq (BitVec.ofNat 32 (i 1).val) 0#32)) 0#32) = 1#1
/-- The output branch's condition. -/
abbrev condLast (i : grid1.Coords) : Prop := k1_cond2 i = 1#1

/-- The reset branch is taken exactly at the points ≡ 0 (mod 8), -/
theorem hcondFirst : ∀ t : Fin cfg1.N, condFirst (grid1.coords t) ↔ t.val % 8 = 0 :=
  (by decide +kernel : ∀ t : Fin grid1.N, condFirst (grid1.coords t) ↔ t.val % 8 = 0)
/-- the output branch exactly at the points ≡ 7 (mod 8). -/
theorem hcondLast : ∀ t : Fin cfg1.N, condLast (grid1.coords t) ↔ t.val % 8 = 7 :=
  (by decide +kernel : ∀ t : Fin grid1.N, condLast (grid1.coords t) ↔ t.val % 8 = 7)

/-- The inputs are never idle; -/
theorem live_in (w : Fin cfg1.W) (hw : w.val < 3) (i : grid1.Coords) : cfg1.idle w i = false := by
  match w, hw with
  | ⟨0, _⟩, _ => rfl
  | ⟨1, _⟩, _ => rfl
  | ⟨2, _⟩, _ => rfl
/-- the output window is idle away from the output branch and not written back there, -/
theorem idle_out : ∀ t : Fin cfg1.N, ¬condLast (grid1.coords t) → cfg1.idle 3 (grid1.coords t) = true := by decide +kernel
theorem noFlush_out : ∀ t : Fin cfg1.N, ¬condLast (grid1.coords t) → (cfg1.win 3).flush t = false := by decide +kernel
/-- and live where the branch is taken. -/
theorem live_out : ∀ t : Fin cfg1.N, condLast (grid1.coords t) → cfg1.idle 3 (grid1.coords t) = false := by decide +kernel

/-- The accumulator's recursion at a reset point, -/
theorem accAt_first (c : Dev nD) (t : Fin cfg1.N) (h : t.val % 8 = 0) :
    accAt V c t.val t.isLt = k1_pay2 (iblk V c 0 t) (iblk V c 1 t) (k1_pay1 (F := F)) := by
  obtain ⟨n, hn⟩ := t
  cases n with
  | zero => rfl
  | succ n => exact if_pos h

/-- and at any other point, over what the point before left. -/
theorem accAt_next (c : Dev nD) (t : Fin cfg1.N) (h : ¬t.val % 8 = 0) :
    accAt V c t.val t.isLt
      = k1_pay2 (iblk V c 0 t) (iblk V c 1 t) (accAt V c (t.val - 1) (Nat.lt_of_le_of_lt (Nat.sub_le _ _) t.isLt)) := by
  obtain ⟨n, hn⟩ := t
  cases n with
  | zero => exact absurd (Nat.zero_mod _) h
  | succ n => exact if_neg h

/-! ## The body on whole memrefs, shape by shape -/

theorem hz2 : (![0, 0] : Fin 2 → Nat) = fun _ => 0 := by funext a; fin_cases a <;> rfl

/-- A store through the accumulator-sized rectangle at the origin covers the buffer, whatever was stored before. -/
theorem cover_acc (p0 : Vec F S512x4096 .f32) (L : List (View.Piece (Elt F) S512x4096 .f32)) (y : S512x4096.Idx) :
    ∃ pc ∈ ((⟨Rect.unit (s := S512x4096) ![0, 0] S512x4096.size inb_S512x4096_S512x4096_0_0, p0⟩ : View.Piece (Elt F) S512x4096 .f32) :: L), y ∈ pc.1.set := by
  obtain ⟨pc, hpc, hy⟩ := View.cover_of_tiled ([⟨Rect.unit (s := S512x4096) ![0, 0] S512x4096.size inb_S512x4096_S512x4096_0_0, p0⟩] : List (View.Piece (Elt F) S512x4096 .f32)) S512x4096.size (by rfl) y
  rw [List.mem_singleton] at hpc; subst hpc
  exact ⟨_, List.mem_cons.mpr (Or.inl rfl), hy⟩

set_option maxHeartbeats 2000000 in
/-- A reset point (j = 0): whatever the accumulator held, it ends at the tiles' product added to zero; the two tiles
    are left as found, the bias row and the output tile are not touched. -/
theorem run_first (c : Dev nD) (E : Set ℕ) (i : grid1.Coords)
    (arg2 : Memref sig .tc .vmem S512x512 .f32) (harg2 : arg2.IsWhole) (arg3 : Memref sig .tc .vmem S4096x512 .bf16) (harg3 : arg3.IsWhole)
    (arg4 : Memref sig .tc .vmem S1x4096 .f32) (harg4 : arg4.IsWhole) (arg5 : Memref sig .tc .vmem S512x4096 .f32) (harg5 : arg5.IsWhole)
    (arg6 : Memref sig .tc .vmem S512x4096 .f32) (harg6 : arg6.IsWhole)
    (hc0 : condFirst i) (hc1 : ¬condLast i)
    (x : Vec F S512x512 .f32) (w : Vec F S4096x512 .bf16) (K : PUnit → sProp 𝕄) :
    iprop(owns (c : Thread nD τ) arg2 fullShare x ∗ owns (c : Thread nD τ) arg3 fullShare w
        ∗ (∃ d, owns (c : Thread nD τ) arg6 fullShare d)
        ∗ (iprop(owns (c : Thread nD τ) arg2 fullShare x ∗ owns (c : Thread nD τ) arg3 fullShare w
            ∗ owns (c : Thread nD τ) arg6 fullShare (k1_pay2 x w (k1_pay1 (F := F)))) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f2, %hf2, H2⟩, ⟨%f3, %hf3, H3⟩, ⟨%d6, %f6, -, H6⟩, Hk⟩
  obtain rfl := harg2.eq_unread hf2; obtain rfl := harg3.eq_unread hf3
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  iexists _; isplitr
  swap; · iexact H6
  ipureintro
  sl_unfold_words
  rw [View.read_writes_eq_canon _ _ _ (cover_acc _ _), View.canon_cons_unit_zero hz2]
  simp only [View.readAt_eq_ld, harg2.read_unread, harg3.read_unread, View.ld_unit_zero (S := S512x512) hz2,
    View.ld_unit_zero (S := S4096x512) hz2, View.ld_unit_zero (S := S512x4096) hz2, View.readCov_unit_zero (S := S512x4096) _ hz2]

set_option maxHeartbeats 2000000 in
/-- A middle point (0 < j < 7): the accumulator gains the tiles' product. -/
theorem run_mid (c : Dev nD) (E : Set ℕ) (i : grid1.Coords)
    (arg2 : Memref sig .tc .vmem S512x512 .f32) (harg2 : arg2.IsWhole) (arg3 : Memref sig .tc .vmem S4096x512 .bf16) (harg3 : arg3.IsWhole)
    (arg4 : Memref sig .tc .vmem S1x4096 .f32) (harg4 : arg4.IsWhole) (arg5 : Memref sig .tc .vmem S512x4096 .f32) (harg5 : arg5.IsWhole)
    (arg6 : Memref sig .tc .vmem S512x4096 .f32) (harg6 : arg6.IsWhole)
    (hc0 : ¬condFirst i) (hc1 : ¬condLast i)
    (x : Vec F S512x512 .f32) (w : Vec F S4096x512 .bf16) (a : Vec F S512x4096 .f32) (K : PUnit → sProp 𝕄) :
    iprop(owns (c : Thread nD τ) arg2 fullShare x ∗ owns (c : Thread nD τ) arg3 fullShare w
        ∗ owns (c : Thread nD τ) arg6 fullShare a
        ∗ (iprop(owns (c : Thread nD τ) arg2 fullShare x ∗ owns (c : Thread nD τ) arg3 fullShare w
            ∗ owns (c : Thread nD τ) arg6 fullShare (k1_pay2 x w a)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f2, %hf2, H2⟩, ⟨%f3, %hf3, H3⟩, ⟨%f6, %hf6, H6⟩, Hk⟩
  obtain rfl := harg2.eq_unread hf2; obtain rfl := harg3.eq_unread hf3; obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  iexists _; isplitr
  swap; · iexact H6
  ipureintro
  sl_unfold_words
  rw [View.read_writes_eq_canon _ _ _ (cover_acc _ _), View.canon_cons_unit_zero hz2]
  simp only [View.readAt_eq_ld, harg2.read_unread, harg3.read_unread, harg6.read_unread, View.ld_unit_zero (S := S512x512) hz2,
    View.ld_unit_zero (S := S4096x512) hz2, View.ld_unit_zero (S := S512x4096) hz2]

set_option maxHeartbeats 2000000 in
/-- A last point (j = 7): the accumulator gains the tiles' product, and the output tile is stored as the new
    accumulator plus the bias row, whatever it held. -/
theorem run_last (c : Dev nD) (E : Set ℕ) (i : grid1.Coords)
    (arg2 : Memref sig .tc .vmem S512x512 .f32) (harg2 : arg2.IsWhole) (arg3 : Memref sig .tc .vmem S4096x512 .bf16) (harg3 : arg3.IsWhole)
    (arg4 : Memref sig .tc .vmem S1x4096 .f32) (harg4 : arg4.IsWhole) (arg5 : Memref sig .tc .vmem S512x4096 .f32) (harg5 : arg5.IsWhole)
    (arg6 : Memref sig .tc .vmem S512x4096 .f32) (harg6 : arg6.IsWhole)
    (hc0 : ¬condFirst i) (hc1 : condLast i)
    (x : Vec F S512x512 .f32) (w : Vec F S4096x512 .bf16) (b : Vec F S1x4096 .f32) (a : Vec F S512x4096 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg5 fullShare d) ∗ owns (c : Thread nD τ) arg6 fullShare a
        ∗ (iprop(owns (c : Thread nD τ) arg2 fullShare x ∗ owns (c : Thread nD τ) arg3 fullShare w ∗ owns (c : Thread nD τ) arg4 fullShare b
            ∗ owns (c : Thread nD τ) arg5 fullShare (k1_pay3 (k1_pay2 x w a) b) ∗ owns (c : Thread nD τ) arg6 fullShare (k1_pay2 x w a)) -∗ K ⟨⟩))
      ⊢ wp frame (wpE (defs₀ (F := F)) Variants.none c none) E (cc1__matmul_kernel i arg2 harg2 arg3 harg3 arg4 harg4 arg5 harg5 arg6 harg6) K := by
  simp only [cc1__matmul_kernel_eq_skeleton]; unfold cc1__matmul_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3; obtain rfl := harg4.eq_unread hf4; obtain rfl := harg6.eq_unread hf6
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_words
    rw [View.read_writes_eq_canon _ _ _ (cover_acc _ _), View.canon_unit_zero hz2]
    simp only [View.readAt_eq_ld, harg2.read_unread, harg3.read_unread, harg4.read_unread, harg6.read_unread,
      View.ld_unit_zero (S := S512x512) hz2, View.ld_unit_zero (S := S4096x512) hz2, View.ld_unit_zero (S := S1x4096) hz2,
      View.ld_unit_zero (S := S512x4096) hz2, View.readCov_unit_zero (S := S512x4096) _ hz2]
  · iexists _; isplitr
    swap; · iexact H6
    ipureintro
    sl_unfold_words
    rw [View.read_writes_eq_canon _ _ _ (cover_acc _ _), View.canon_cons_unit_zero hz2]
    simp only [View.readAt_eq_ld, harg2.read_unread, harg3.read_unread, harg6.read_unread, View.ld_unit_zero (S := S512x512) hz2,
      View.ld_unit_zero (S := S4096x512) hz2, View.ld_unit_zero (S := S512x4096) hz2]

/-! ## The invariant, opened and closed -/

/-- What rides beside the accumulator in the invariant: the first call's twelve staging buffers (scoped, idle in
    this region) at anything, and the generator register at some state. -/
def Rest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)
      ∗ (∃ r, prngReg c r))

/-- After position `n` the invariant is the accumulator at that position's contents beside the rest. -/
theorem Phi_succ (c : Dev nD) (n : ℕ) (hn : n < cfg1.N) :
    Phi V c (n + 1) hn = iprop(owns (c : Thread nD τ) accM fullShare (accAt V c n hn) ∗ Rest (F := F) c) := rfl

/-- Before a position that is not the first: the accumulator at what the position before left. -/
theorem Phi_pos (c : Dev nD) (n : ℕ) (h : n ≤ cfg1.N) (hz : n ≠ 0) :
    Phi V c n h = iprop(owns (c : Thread nD τ) accM fullShare (accAt V c (n - 1) (by omega)) ∗ Rest (F := F) c) := by
  cases n with
  | zero => exact absurd rfl hz
  | succ n => rfl

/-- The class's invariant is the accumulator at anything beside the rest: the scoped buffers no window of this call
    stages are exactly those twelve and the accumulator. -/
theorem PhiA_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)
          ∗ (∃ d, owns (c : Thread nD τ) accM fullShare d)) ∗ (∃ r, prngReg c r)) := by
  unfold Pipeline.ΦA; rw [scopedRest1_eq]; simp only [accM, owns_whole]; try rfl

theorem PhiA_open (c : Dev nD) :
    (Pipeline.ΦA spec1 c : sProp 𝕄) ⊢ iprop((∃ d, owns (c : Thread nD τ) accM fullShare d) ∗ Rest (F := F) c) := by
  rw [PhiA_eq]; unfold Rest
  iintro ⟨⟨R0, R1, R2, R3, R4, R5, R6, R7, R8, R9, R10, R11, HS⟩, HP⟩
  isplitl [HS]; · iexact HS
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iexact HP

theorem PhiA_close (c : Dev nD) :
    iprop((∃ d, owns (c : Thread nD τ) accM fullShare d) ∗ Rest (F := F) c) ⊢ (Pipeline.ΦA spec1 c : sProp 𝕄) := by
  rw [PhiA_eq]; unfold Rest
  iintro ⟨HS, R0, R1, R2, R3, R4, R5, R6, R7, R8, R9, R10, R11, HP⟩
  isplitr [HP]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexact HS
  · iexact HP

/-- Before any position the invariant yields the accumulator at something beside the rest. -/
theorem Phi_open (c : Dev nD) (n : ℕ) (h : n ≤ cfg1.N) :
    Phi V c n h ⊢ iprop((∃ d, owns (c : Thread nD τ) accM fullShare d) ∗ Rest (F := F) c) := by
  cases n with
  | zero => exact PhiA_open c
  | succ n =>
    rw [Phi_succ]
    iintro ⟨HS, HR⟩
    isplitl [HS]; · iexists _; iexact HS
    iexact HR

theorem Phi_castSucc (c : Dev nD) (t : Fin cfg1.N) :
    (dat V c).Φ t.castSucc = Phi V c t.val (Nat.le_of_lt t.isLt) := rfl

/-! ## The body obligation -/

/-- An input window's current staging buffer holds its tile at every point, fetched there or not: unfetched, the
    index has not moved and the body left the tile in place. -/
theorem before_0 (c : Dev nD) (t : Fin cfg1.N) (d) : (dat V c).before 0 t d = iblk V c 0 t :=
  ((dat V c).before_in_eq_fetched 0 rfl (fun _ => rfl) (fun _ _ _ => rfl)
    (fun t => by rw [show (dat V c).after 0 t = iblk V c 0 t from by dsimp only [dat]]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [show (dat V c).after 1 t = iblk V c 1 t from by dsimp only [dat]]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl)
    (fun t => by rw [show (dat V c).after 2 t = iblk V c 2 t from by dsimp only [dat]]; unfold Dat.blockOf iblk; rw [A_eq]; try rfl) t d).trans
    (by unfold Dat.fetched Dat.blockOf iblk; rw [A_eq]; try rfl)

/-- What the body owes of an input window's buffer after the point: the tile, as found. -/
theorem leaves_0 (c : Dev nD) (t : Fin cfg1.N) :
    (dat V c).leavesExact 0 t = owns (c : Thread nD τ) (st1_0 t) fullShare (iblk V c 0 t) := by
  unfold Dat.leavesExact; rw [live_in 0 (by decide)]; dsimp only [dat]
theorem leaves_1 (c : Dev nD) (t : Fin cfg1.N) :
    (dat V c).leavesExact 1 t = owns (c : Thread nD τ) (st1_1 t) fullShare (iblk V c 1 t) := by
  unfold Dat.leavesExact; rw [live_in 1 (by decide)]; dsimp only [dat]
theorem leaves_2 (c : Dev nD) (t : Fin cfg1.N) :
    (dat V c).leavesExact 2 t = owns (c : Thread nD τ) (st1_2 t) fullShare (iblk V c 2 t) := by
  unfold Dat.leavesExact; rw [live_in 2 (by decide)]; dsimp only [dat]

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4000000 in
/-- The body at any point. The inputs' buffers hold their tiles; the point's residue mod 8 says which of the three
    shapes it has; the invariant hands the body the accumulator at what the point before left (at anything where it
    is about to be reset) and takes it back at this point's contents; the output tile is stored at the last of
    eight and handed back untouched elsewhere; nothing is owed throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl,
    show (dat V c).Φ t.succ = Phi V c (t.val + 1) t.isLt from rfl, Phi_succ, Phi_castSucc,
    leaves_0, leaves_1, leaves_2]
  have hN : t.val < 128 := lt_of_lt_of_eq t.isLt (show cfg1.N = 128 from N_1)
  by_cases h0 : t.val % 8 = 0
  · have hc0 : condFirst (grid1.coords t) := (hcondFirst t).mpr h0
    have hc1 : ¬condLast (grid1.coords t) := fun h => by have := (hcondLast t).mp h; omega
    rw [Dat.leavesExact_idle (dat V c) 3 t (idle_out t hc1) (noFlush_out t hc1), accAt_first V c t h0]
    have hopen := Phi_open V c t.val (Nat.le_of_lt t.isLt)
    iintro ⟨HPhi, Ho, ⟨%d0, H0⟩, ⟨%d1, H1⟩, ⟨%d2, H2⟩, H3⟩
    ihave HP2 := hopen $$ HPhi
    icases HP2 with ⟨HS, HR⟩
    iapply (run_first c Set.univ (grid1.coords t) _ _ _ _ _ _ _ _ _ _ hc0 hc1 (iblk V c 0 t) (iblk V c 1 t) _)
    isplitl [H0]; · iexact H0
    isplitl [H1]; · iexact H1
    isplitl [HS]; · iexact HS
    iintro ⟨H0, H1, HS⟩
    isplitl [HS HR]
    · isplitl [HS]; · iexact HS
      iexact HR
    isplitl [Ho]; · iexact Ho
    isplitl [H0]; · iexact H0
    isplitl [H1]; · iexact H1
    isplitl [H2]; · iexact H2
    iexact H3
  · have hc0 : ¬condFirst (grid1.coords t) := fun h => h0 ((hcondFirst t).mp h)
    have hz : t.val ≠ 0 := fun h => h0 (by rw [h])
    rw [Phi_pos V c t.val _ hz, accAt_next V c t h0]
    by_cases h1 : t.val % 8 = 7
    · have hc1 : condLast (grid1.coords t) := (hcondLast t).mpr h1
      rw [show (dat V c).leavesExact 3 t = owns (c : Thread nD τ) (st1_3 t) fullShare ((dat V c).after 3 t) from by
        unfold Dat.leavesExact; rw [live_out t hc1], after_out]
      unfold outAt
      rw [accAt_next V c t h0]
      iintro ⟨⟨HS, HR⟩, Ho, ⟨%d0, H0⟩, ⟨%d1, H1⟩, ⟨%d2, H2⟩, ⟨%d3, H3⟩⟩
      iapply (run_last c Set.univ (grid1.coords t) _ _ _ _ _ _ _ _ _ _ hc0 hc1 (iblk V c 0 t) (iblk V c 1 t) (iblk V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR]
      · isplitl [HS]; · iexact HS
        iexact HR
      isplitl [Ho]; · iexact Ho
      isplitl [H0]; · iexact H0
      isplitl [H1]; · iexact H1
      isplitl [H2]; · iexact H2
      iexact H3
    · have hc1 : ¬condLast (grid1.coords t) := fun h => h1 ((hcondLast t).mp h)
      rw [Dat.leavesExact_idle (dat V c) 3 t (idle_out t hc1) (noFlush_out t hc1)]
      iintro ⟨⟨HS, HR⟩, Ho, ⟨%d0, H0⟩, ⟨%d1, H1⟩, ⟨%d2, H2⟩, H3⟩
      iapply (run_mid c Set.univ (grid1.coords t) _ _ _ _ _ _ _ _ _ _ hc0 hc1 (iblk V c 0 t) (iblk V c 1 t) _ _)
      isplitl [H0]; · iexact H0
      isplitl [H1]; · iexact H1
      isplitl [HS]; · iexact HS
      iintro ⟨H0, H1, HS⟩
      isplitl [HS HR]
      · isplitl [HS]; · iexact HS
        iexact HR
      isplitl [Ho]; · iexact Ho
      isplitl [H0]; · iexact H0
      isplitl [H1]; · iexact H1
      isplitl [H2]; · iexact H2
      iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 :=
  Idealize.SL.BI.Entails.refl _

/-- After the last point the invariant gives the class's back: the accumulator's contents are forgotten. -/
theorem hout (c : Dev nD) : (dat V c).Φ (Fin.last cfg1.N) ⊢ Pipeline.ΦA spec1 c :=
  (show (dat V c).Φ (Fin.last cfg1.N) ⊢ iprop((∃ d, owns (c : Thread nD τ) accM fullShare d) ∗ Rest (F := F) c) from
    Phi_open V c (Fin.last cfg1.N).val (Nat.le_of_lt_succ (Fin.last cfg1.N).isLt)).trans (PhiA_close c)

end Cert.KernelIdeal.Matmul

end
-- ==== Proof.MainRun.lean ====
/-
  The whole run of the program: nine host reshapes and broadcasts, the dequantising call, one reshape, the blocked
  matrix product, one reshape. The contents of every unscoped buffer are followed from the launch memory through
  the five stretches; the run ends with every such buffer at the last valuation, from which both the frame (no
  argument is ever written) and the result buffer's contents are read.
-/
import proofs.«161157_j64330020159902_1_alg».proof.Proof.Gen.KernelIdeal.Launch
import proofs.«161157_j64330020159902_1_alg».proof.Proof.Gen.KernelIdeal.Skeleton
import proofs.«161157_j64330020159902_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«161157_j64330020159902_1_alg».proof.Proof.DequantBody
import proofs.«161157_j64330020159902_1_alg».proof.Proof.MatmulBody
set_option maxRecDepth 16384

noncomputable section

namespace Cert.KernelIdeal.MainRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => m (c, b)
/-- After the nine host operations before the first call. -/
abbrev W1 : Dev nD → Valuation τ sig (Elt F) := fun c => StableHlo.after hostOps0 (W0 m c)
/-- The same read at the TensorCore's references: what the first call's proof data take. -/
abbrev V1 : (c : Dev nD) → (b : Ref sig .tc) → Buf (Elt F) ((c : Thread nD τ).loc b) := fun c b => W1 m c b
/-- After the first call: its arrays at what the write-backs leave, every other buffer as entered. -/
def W2 (c : Dev nD) : Valuation τ sig (Elt F) :=
  Pipeline.withArrays spec0 c (W1 m c) fun w => (Dequant.dat (V1 m) c).arrAt w cfg0.N
/-- After the reshape of x. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second call. -/
def W4 (c : Dev nD) : Valuation τ sig (Elt F) :=
  Pipeline.withArrays spec1 c (W3 m c) fun w => (Matmul.dat (V3 m) c).arrAt w cfg1.N
/-- After the closing reshape. -/
abbrev W5 : Dev nD → Valuation τ sig (Elt F) := fun c => StableHlo.after hostOps2 (W4 m c)

theorem W2_arr (c : Dev nD) (w : Fin cfg0.W) :
    W2 m c (Proc.devRef .tc (Pipeline.arrRef spec0 w)) = (Dequant.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_arr (c : Dev nD) (w : Fin cfg1.W) :
    W4 m c (Proc.devRef .tc (Pipeline.arrRef spec1 w)) = (Matmul.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

/-- No host operation and no call writes an argument: read through the five stretches it is the launch memory's. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_forall_not_mem (b := Proc.devRef .tc main_arg2) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_forall_not_mem (b := Proc.devRef .tc main_arg3) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_forall_not_mem (b := Proc.devRef .tc main_arg4) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m c (Proc.devRef .tc main_arg4) := W4_of_ne m c main_arg4 (by decide)
    _ = W2 m c (Proc.devRef .tc main_arg4) := StableHlo.after_of_forall_not_mem (b := Proc.devRef .tc main_arg4) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_forall_not_mem (b := Proc.devRef .tc main_arg5) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m c (Proc.devRef .tc main_arg5) := W4_of_ne m c main_arg5 (by decide)
    _ = W2 m c (Proc.devRef .tc main_arg5) := StableHlo.after_of_forall_not_mem (b := Proc.devRef .tc main_arg5) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_forall_not_mem (b := Proc.devRef .tc main_arg6) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m c (Proc.devRef .tc main_arg6) := W4_of_ne m c main_arg6 (by decide)
    _ = W2 m c (Proc.devRef .tc main_arg6) := StableHlo.after_of_forall_not_mem (b := Proc.devRef .tc main_arg6) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m c (Proc.devRef .tc main_arg6) := (W2_arr m c 0).trans (((Dequant.dat (V1 m) c).arrAt_in 0 rfl _).trans (Dequant.A_eq (V1 m) c 0))
    _ = W0 m c (Proc.devRef .tc main_arg6) := StableHlo.after_of_forall_not_mem (b := Proc.devRef .tc main_arg6) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg6) := rfl

/-! ## The proof data of both pipelines and the thread state between two stretches -/

/-- The prefetched tables' admissible contents: neither pipeline has a table. -/
abbrev adm : (p : Fin 2) → (pcfgs (F := F) p).Adm := fun p => (cfgs p).toPCfg_adm
/-- Both pipelines' proof data, each at the contents its call is entered with. A literal match on the pipeline's
    number, so that a numeral reduces to the printed configuration. -/
def pdats : (p : Fin 2) → (c : Dev nD) → Dat τ (Elt F) Unit ℕ (UR sig nD τ) ℕ (Pipeline.pin (pcfgs (F := F)) adm p) c
  | ⟨0, _⟩ => fun c => Dequant.dat (V1 m) c
  | ⟨1, _⟩ => fun c => Matmul.dat (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the core's generator register at some state, and the core
    owing nothing. -/
abbrev R (c : Dev nD) : sProp 𝕄 := iprop((∃ r, prngReg c r) ∗ ∃ W, owes (c : Thread nD τ) (0 : CellTallies nD τ sig Unit) W)
/-- A stretch of host operations over the unscoped buffers from the contents `W`: it ends with those buffers at
    `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The contents at each call's exit, read at the TensorCore's references. -/
abbrev V2 : (c : Dev nD) → (b : Ref sig .tc) → Buf (Elt F) ((c : Thread nD τ).loc b) := fun c b => W2 m c b
abbrev V4 : (c : Dev nD) → (b : Ref sig .tc) → Buf (Elt F) ((c : Thread nD τ).loc b) := fun c b => W4 m c b
/-- At a call's exit each of its arrays holds what the write-backs leave and every other buffer what it held at
    entry. -/
theorem hF0 (c : Dev nD) (w : Fin cfg0.W) : (Dequant.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (Matmul.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- The last thread state without what the core owes: every unscoped buffer at the last contents, the generator
    register at some state. -/
abbrev Tₙ (c : Dev nD) : sProp 𝕄 := iprop(StableHlo.held (c : Thread nD τ) (Pipeline.ucRefs τ sig) (W5 m c) ∗ ∃ r, prngReg c r)
/-- What the closing stretch leaves is the last thread state beside the core owing nothing: a regrouping. -/
theorem last_link (c : Dev nD) :
    iprop(StableHlo.held (c : Thread nD τ) (Pipeline.ucRefs τ sig) (W5 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh] <;> iassumption
  iexact HO

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The two calls as segments of the run -/

set_option backward.isDefEq.respectTransparency.types false in
/-- THE DEQUANTISING CALL over the thread state: entered with every unscoped buffer at `W1`, left at `W2`. Its six
    arrays are split out of the unscoped buffers and put back at what the write-backs leave; the generator register
    goes into the class invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dequant.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE MATRIX PRODUCT over the thread state: entered with every unscoped buffer at `W3`, left at `W4`. Its
    invariant is its own (the accumulator's contents are carried from point to point): before the first point it is
    made from the class invariant, after the last point it gives the class invariant back, the accumulator forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Matmul.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact hA.trans (Matmul.hin (V3 m) c)
  hout c := by
    rw [Pipeline.ownSems0_none]
    have hA : (Pipeline.ΦA spec1 c : sProp 𝕄) ⊢ iprop((∃ r, prngReg c r) ∗ emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (Matmul.hout (V3 m) c).trans hA
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run as five segments, and the launch -/

/-- The five segments in order: a host segment per stretch from its boundary's contents, a region per call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- The program is the run of the segments. -/
theorem main_run (c : Dev nD) : main (F := F) c = Pipeline.Seg.run (segs m) := (main_chain c).trans (by chain_rfl)

set_option backward.isDefEq.respectTransparency.types false in
/-- THE RUN. From any memory with zero counters every weakly fair execution of the program terminates without a
    fault, and in every final state each unscoped buffer of each core holds the last valuation's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

end Cert.KernelIdeal.MainRun

end
-- ==== Proof.Spec.lean ====
/-
  What the program computes, as functions of the argument arrays over the extended reals.
  A weight entry is ((q - zero) * scale) * rowFactor * colFactor, the scale and zero point shared by the 64 columns of
  a group; the result is x times the transposed weights plus the bias:
      out[b, s, k] = (sum over n of x[b, s, n] * W[k, n]) + bias[k].
  The two pallas_calls compute this in two stages over 2-D arrays; those stages are stated here too.
-/
import Idealize.ShloMosaic.PureOps.Ideal
import Idealize.ShloMosaic.Lib.ValueIdx

noncomputable section

namespace Cert.Spec

open Idealize.ShloMosaic Idealize.ShloMosaic.ValueIdx

abbrev SX : Shape := ⟨3, ![4, 2048, 4096]⟩
abbrev SG : Shape := ⟨3, ![4096, 64, 1]⟩
abbrev SV : Shape := ⟨1, ![4096]⟩
abbrev SW : Shape := ⟨2, ![4096, 4096]⟩
abbrev SM : Shape := ⟨2, ![8192, 4096]⟩
abbrev SRow : Shape := ⟨2, ![1, 4096]⟩
abbrev SCol : Shape := ⟨2, ![4096, 1]⟩

/-- The group a column belongs to: 64 consecutive columns share a scale and a zero point. -/
def grp (n : Fin 4096) : Fin 64 := ⟨n.val / 64, by omega⟩

/-- The signed integer a 32-bit word denotes, as an extended real. -/
def ofInt (b : BitVec 32) : EReal := ((b.toInt : ℝ) : EReal)

/-- The dequantised and rescaled weight W[k, n], from the raw arguments. -/
def weight (scales zeros : SG.Idx → EReal) (mu1 mu2 : SV.Idx → EReal) (wq : SW.Idx → BitVec 32) (k n : Fin 4096) : EReal :=
  (ofInt (wq (ix2 k n)) - zeros (ix3 k (grp n) 0)) * scales (ix3 k (grp n) 0) * mu2 (ix1 k) * mu1 (ix1 n)

/-- THE RESULT: out[b, s, k] = (sum over n of x[b, s, n] * W[k, n]) + bias[k]. -/
def G (x : SX.Idx → EReal) (scales zeros : SG.Idx → EReal) (mu1 mu2 bias : SV.Idx → EReal) (wq : SW.Idx → BitVec 32) :
    SX.Idx → EReal :=
  fun i => (∑ n : Fin 4096, x (ix3 (i 0) (i 1) n) * weight scales zeros mu1 mu2 wq (i 2) n) + bias (ix1 (i 2))

/-- Stage one over 2-D arrays: the weights from the quantised words, the scales and zero points already spread over
    their groups' columns, the column factors as a row and the row factors as a column. -/
def weight2 (q : SW.Idx → BitVec 32) (sc zr : SW.Idx → EReal) (m1 : SRow.Idx → EReal) (m2 : SCol.Idx → EReal) :
    SW.Idx → EReal :=
  fun i => (ofInt (q i) - zr i) * sc i * m2 (ix2 (i 0) 0) * m1 (ix2 0 (i 1))

/-- Stage two over 2-D arrays: rows of x against rows of the weights, plus the bias row. -/
def linear2 (x : SM.Idx → EReal) (w : SW.Idx → EReal) (b : SRow.Idx → EReal) : SM.Idx → EReal :=
  fun i => (∑ n : Fin 4096, x (ix2 (i 0) n) * w (ix2 (i 1) n)) + b (ix2 0 (i 1))

end Cert.Spec

end
-- ==== Proof.DequantValue.lean ====
/-
  What the first call leaves in the weight array: every 512 x 1024 tile of the output is written back exactly once,
  at its own grid point, with ((q - zero) * scale) * rowFactor * colFactor of the matching input tiles; the tiles
  cover the 4096 x 4096 array, so the array ends as that expression of the five input arrays, entry by entry.
-/
import proofs.«161157_j64330020159902_1_alg».proof.Proof.Gen.KernelIdeal.Launch
import proofs.«161157_j64330020159902_1_alg».proof.Proof.Gen.KernelIdeal.Skeleton
import proofs.«161157_j64330020159902_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«161157_j64330020159902_1_alg».proof.Proof.DequantBody
import proofs.«161157_j64330020159902_1_alg».proof.Proof.Spec
import Idealize.ShloMosaic.Lib.ValueIdx
import Idealize.ShloMosaic.Lib.ValueLayout
import Idealize.ShloMosaic.Lib.Pipeline.Value
import Idealize.ShloMosaic.PureOps.Ideal.Laws
set_option maxRecDepth 16384

noncomputable section

namespace Cert.KernelIdeal.DequantValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- The stored tile at an index: the signed integer the quantised word denotes, less the zero point, times the
    scale, times the row factor of the index's row, times the column factor of its column. -/
theorem tileOut_apply (q : Vec Ideal S512x1024 .i32) (sc zr : Vec Ideal S512x1024 .f32) (m1 : Vec Ideal S1x1024 .f32)
    (m2 : Vec Ideal S512x1 .f32) (p : Fin 512) (r : Fin 1024) :
    Dequant.tileOut q sc zr m1 m2 (ix2 p r)
      = (Cert.Spec.ofInt (q (ix2 p r)) - zr (ix2 p r)) * sc (ix2 p r) * m2 (ix2 p 0) * m1 (ix2 0 r) := by
  unfold Dequant.tileOut k0_pay1
  rw [shapeCast_self, shapeCast_self, shapeCast_self, shapeCast_self]
  have e2 : broadcastTo S512x1024 m2 broadcasts_S512x1_S512x1024 (ix2 p r) = m2 (ix2 p 0) :=
    broadcastTo_apply m2 broadcasts_S512x1_S512x1024 (ix2 p r) (ix2 p 0) fun a => by
      match a with
      | ⟨0, _⟩ => rfl
      | ⟨1, _⟩ => rfl
  have e1 : broadcastTo S512x1024 m1 broadcasts_S1x1024_S512x1024 (ix2 p r) = m1 (ix2 0 r) :=
    broadcastTo_apply m1 broadcasts_S1x1024_S512x1024 (ix2 p r) (ix2 0 r) fun a => by
      match a with
      | ⟨0, _⟩ => rfl
      | ⟨1, _⟩ => rfl
  show ((Cert.Spec.ofInt (q (ix2 p r)) - zr (ix2 p r)) * sc (ix2 p r)) * broadcastTo S512x1024 m2 broadcasts_S512x1_S512x1024 (ix2 p r) * broadcastTo S512x1024 m1 broadcasts_S1x1024_S512x1024 (ix2 p r) = _
  rw [e1, e2]

/-- The printed index maps, decided over the 32 points: the output tile of point t is tile (t / 4, t % 4); the
    three full-size input windows move with it, the column-factor window sits at (0, t % 4), the row-factor window
    at (t / 4, 0). -/
theorem idx_facts : ∀ t : Fin cfg0.N,
    win0_5.index t (0 : Fin 2) = t.val / 4 ∧ win0_5.index t (1 : Fin 2) = t.val % 4
    ∧ win0_0.index t (0 : Fin 2) = t.val / 4 ∧ win0_0.index t (1 : Fin 2) = t.val % 4
    ∧ win0_1.index t (0 : Fin 2) = t.val / 4 ∧ win0_1.index t (1 : Fin 2) = t.val % 4
    ∧ win0_2.index t (0 : Fin 2) = t.val / 4 ∧ win0_2.index t (1 : Fin 2) = t.val % 4
    ∧ win0_3.index t (0 : Fin 2) = 0 ∧ win0_3.index t (1 : Fin 2) = t.val % 4
    ∧ win0_4.index t (0 : Fin 2) = t.val / 4 ∧ win0_4.index t (1 : Fin 2) = 0 :=
  (by decide +kernel : ∀ t : Fin grid0.N, _)

set_option maxHeartbeats 400000 in
/-- What point t writes back is tile t of stage one's function of the five arrays as the region finds them. -/
theorem flushed_eq (c : Dev nD) (t : Fin cfg0.N) :
    (Dequant.dat (F := Ideal) V c).flushed 5 t
      = ((cfg0.win 5).blk t).view.read (Elt Ideal)
          (Cert.Spec.weight2 (V c main_arg6) (V c main_v2) (V c main_v5) (V c main_v6) (V c main_v7)) := by
  show (Dequant.dat (F := Ideal) V c).after 5 t = _
  rw [Dequant.after_out]
  funext j
  obtain ⟨p, r, rfl⟩ : ∃ (p : Fin 512) (r : Fin 1024), j = ix2 p r := ⟨j 0, j 1, eq_ix2 j⟩
  refine (tileOut_apply (Dequant.iblk V c 0 t) (Dequant.iblk V c 1 t) (Dequant.iblk V c 2 t) (Dequant.iblk V c 3 t)
    (Dequant.iblk V c 4 t) p r).trans ?_
  obtain ⟨o0, o1, a0, a1, b0, b1, c0, c1, d0, d1, e0, e1⟩ := idx_facts t
  have hp : p.val < 512 := p.isLt
  have hr : r.val < 1024 := r.isLt
  have ht : t.val < 32 := t.isLt

  show (Cert.Spec.ofInt (V c main_arg6 (((cfg0.win 0).blk t).view.emb (ix2 p r)))
        - V c main_v5 (((cfg0.win 2).blk t).view.emb (ix2 p r)))
      * V c main_v2 (((cfg0.win 1).blk t).view.emb (ix2 p r))
      * V c main_v7 (((cfg0.win 4).blk t).view.emb (ix2 p 0))
      * V c main_v6 (((cfg0.win 3).blk t).view.emb (ix2 0 r))
    = Cert.Spec.weight2 (V c main_arg6) (V c main_v2) (V c main_v5) (V c main_v6) (V c main_v7)
        (((cfg0.win 5).blk t).view.emb (ix2 p r))
  have h0 : ((cfg0.win 0).blk t).view.emb (ix2 p r) = ((cfg0.win 5).blk t).view.emb (ix2 p r) := by
    funext a; apply Fin.ext
    match a with
    | ⟨0, _⟩ => show win0_0.index t (0 : Fin 2) * 512 + 1 * p.val = win0_5.index t (0 : Fin 2) * 512 + 1 * p.val; omega
    | ⟨1, _⟩ => show win0_0.index t (1 : Fin 2) * 1024 + 1 * r.val = win0_5.index t (1 : Fin 2) * 1024 + 1 * r.val; omega
  have h1 : ((cfg0.win 1).blk t).view.emb (ix2 p r) = ((cfg0.win 5).blk t).view.emb (ix2 p r) := by
    funext a; apply Fin.ext
    match a with
    | ⟨0, _⟩ => show win0_1.index t (0 : Fin 2) * 512 + 1 * p.val = win0_5.index t (0 : Fin 2) * 512 + 1 * p.val; omega
    | ⟨1, _⟩ => show win0_1.index t (1 : Fin 2) * 1024 + 1 * r.val = win0_5.index t (1 : Fin 2) * 1024 + 1 * r.val; omega
  have h2 : ((cfg0.win 2).blk t).view.emb (ix2 p r) = ((cfg0.win 5).blk t).view.emb (ix2 p r) := by
    funext a; apply Fin.ext
    match a with
    | ⟨0, _⟩ => show win0_2.index t (0 : Fin 2) * 512 + 1 * p.val = win0_5.index t (0 : Fin 2) * 512 + 1 * p.val; omega
    | ⟨1, _⟩ => show win0_2.index t (1 : Fin 2) * 1024 + 1 * r.val = win0_5.index t (1 : Fin 2) * 1024 + 1 * r.val; omega
  have h3 : ((cfg0.win 3).blk t).view.emb (ix2 0 r)
      = ix2 0 ((((cfg0.win 5).blk t).view.emb (ix2 p r)) 1) := by
    funext a; apply Fin.ext
    match a with
    | ⟨0, _⟩ => show win0_3.index t (0 : Fin 2) * 1 + 1 * 0 = 0; omega
    | ⟨1, _⟩ => show win0_3.index t (1 : Fin 2) * 1024 + 1 * r.val = win0_5.index t (1 : Fin 2) * 1024 + 1 * r.val; omega
  have h4 : ((cfg0.win 4).blk t).view.emb (ix2 p 0)
      = ix2 ((((cfg0.win 5).blk t).view.emb (ix2 p r)) 0) 0 := by
    funext a; apply Fin.ext
    match a with
    | ⟨0, _⟩ => show win0_4.index t (0 : Fin 2) * 512 + 1 * p.val = win0_5.index t (0 : Fin 2) * 512 + 1 * p.val; omega
    | ⟨1, _⟩ => show win0_4.index t (1 : Fin 2) * 1 + 1 * 0 = 0; omega
  rw [h0, h1, h2, h3, h4]
  rfl

/-- An entry of the array lies in point t's tile iff each of its coordinates lies in the tile's range on that axis. -/
theorem mem_blk (t : Fin cfg0.N) (i : S4096x4096.Idx) :
    i ∈ ((cfg0.win 5).blk t).view.set
      ↔ ∀ a : Fin 2, win0_5.index t a * S512x1024.size a ≤ (i a).val
          ∧ (i a).val < win0_5.index t a * S512x1024.size a + S512x1024.size a := by
  show i ∈ ((View.whole main_v9).slice (win0_5.rect t)).set ↔ _
  rw [View.set_slice_whole, Rect.mem_set_unit]
  exact Iff.rfl

/-- The tiles cover the array: entry (k, n) lies in the tile of point (k / 512) * 4 + n / 1024. -/
theorem cover (i : S4096x4096.Idx) :
    ∃ t : Fin cfg0.N, (cfg0.win 5).flush t = true ∧ i ∈ ((cfg0.win 5).blk t).view.set := by
  have hi0 : (i 0).val < 4096 := (i 0).isLt
  have hi1 : (i 1).val < 4096 := (i 1).isLt
  have hN : cfg0.N = 32 := by decide
  refine ⟨⟨(i 0).val / 512 * 4 + (i 1).val / 1024, by rw [hN]; omega⟩, flush0_5 _, ?_⟩
  rw [mem_blk]
  obtain ⟨o0, o1, -⟩ := idx_facts ⟨(i 0).val / 512 * 4 + (i 1).val / 1024, by rw [hN]; omega⟩
  intro a
  match a with
  | ⟨0, _⟩ =>
    show win0_5.index _ (0 : Fin 2) * 512 ≤ (i 0).val ∧ (i 0).val < win0_5.index _ (0 : Fin 2) * 512 + 512
    rw [o0]
    show ((i 0).val / 512 * 4 + (i 1).val / 1024) / 4 * 512 ≤ (i 0).val
      ∧ (i 0).val < ((i 0).val / 512 * 4 + (i 1).val / 1024) / 4 * 512 + 512
    omega
  | ⟨1, _⟩ =>
    show win0_5.index _ (1 : Fin 2) * 1024 ≤ (i 1).val ∧ (i 1).val < win0_5.index _ (1 : Fin 2) * 1024 + 1024
    rw [o1]
    show ((i 0).val / 512 * 4 + (i 1).val / 1024) % 4 * 1024 ≤ (i 1).val
      ∧ (i 1).val < ((i 0).val / 512 * 4 + (i 1).val / 1024) % 4 * 1024 + 1024
    omega

/-- After the 32 write-backs the weight array is stage one's function of the arrays the region found. -/
theorem final_eq (c : Dev nD) :
    (Dequant.dat (F := Ideal) V c).arrAt 5 cfg0.N
      = Cert.Spec.weight2 (V c main_arg6) (V c main_v2) (V c main_v5) (V c main_v6) (V c main_v7) :=
  (Dequant.dat (F := Ideal) V c).arrAt_eq_of_cover 5
    (Cert.Spec.weight2 (V c main_arg6) (V c main_v2) (V c main_v5) (V c main_v6) (V c main_v7))
    (fun t _ => flushed_eq V c t) cover

end Cert.KernelIdeal.DequantValue

end
-- ==== Proof.LibMatmulTransposedRhs.lean ====
/-
  A matrix product against a transposed right operand, read at one entry, on the extended reals.

  For the dimension numbers of an `[M, K]` by `[N, K]` product (contract the last axis of both operands, no batch
  axis), the matrix unit's product accumulated into a zero block, and the host's `dot_general`, are both, at entry
  `(r, s)`, the sum over `k` of `lhs[r, k] · rhs[s, k]`: the contraction index has one coordinate, and the operand
  indices at `(r, s)` and `k` are `(r, k)` and `(s, k)`.
-/
import Idealize.ShloMosaic.PureOps.Ideal.Laws
import Idealize.ShloMosaic.Lib.ValueIdx

noncomputable section

open scoped BigOperators
open Idealize.ShloMosaic Idealize.ShloMosaic.ValueIdx

namespace Cert.MatmulTransposedRhs

variable {M K N : Nat}

/-- The left operand's index at output `(r, s)` and contraction coordinate `k` is `(r, k)`. -/
theorem lhsIdx_transposedRhs (r : Fin M) (s : Fin N) (k : Fin K) :
    (DotDims.transposedRhs M K N).lhsIdx (ix2 r s) ((contrEquiv1 (DotDims.transposedRhs M K N) K rfl rfl).symm k) = ix2 r k := by
  have hk := contrEquiv1_symm_val (DotDims.transposedRhs M K N) K rfl rfl k
  funext a
  refine Fin.ext ?_
  match a with
  | ⟨0, _⟩ => rfl
  | ⟨1, _⟩ => exact ((DotDims.transposedRhs M K N).lhsIdx_val_of_single rfl (ix2 r s) _).trans hk

/-- The right operand's index there is `(s, k)`. -/
theorem rhsIdx_transposedRhs (r : Fin M) (s : Fin N) (k : Fin K) :
    (DotDims.transposedRhs M K N).rhsIdx (ix2 r s) ((contrEquiv1 (DotDims.transposedRhs M K N) K rfl rfl).symm k) = ix2 s k := by
  have hk := contrEquiv1_symm_val (DotDims.transposedRhs M K N) K rfl rfl k
  funext a
  refine Fin.ext ?_
  match a with
  | ⟨0, _⟩ => rfl
  | ⟨1, _⟩ => exact ((DotDims.transposedRhs M K N).rhsIdx_val_of_single rfl (ix2 r s) _).trans hk

/-- The matrix unit's product into a zero accumulator, at entry `(r, s)`: `Σ_k lhs[r, k] · rhs[s, k]`. -/
theorem matmul_zero_apply {φ₁ φ₂ : FTy} (prec : Option ContractPrecision)
    (lhs : FVec Ideal ⟨2, ![M, K]⟩ φ₁) (rhs : FVec Ideal ⟨2, ![N, K]⟩ φ₂) (r : Fin M) (s : Fin N) :
    FloatOps.matmul (DotDims.transposedRhs M K N) prec lhs rhs (constant ⟨2, ![M, N]⟩ .f32 0x00000000#32) (ix2 r s)
      = ∑ k : Fin K, lhs (ix2 r k) * rhs (ix2 s k) := by
  rw [Ideal.matmul_constant_zero_apply, ← Equiv.sum_comp (contrEquiv1 (DotDims.transposedRhs M K N) K rfl rfl).symm]
  refine Finset.sum_congr rfl fun k _ => ?_
  rw [lhsIdx_transposedRhs, rhsIdx_transposedRhs]

/-- The host's `dot_general` at entry `(r, s)`: the same sum. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (s : Fin N) :
    FloatOps.dotGeneral (DotDims.transposedRhs M K N) prec sched lhs rhs (ix2 r s)
      = ∑ k : Fin K, lhs (ix2 r k) * rhs (ix2 s k) := by
  rw [Ideal.dotGeneral_apply, ← Equiv.sum_comp (contrEquiv1 (DotDims.transposedRhs M K N) K rfl rfl).symm]
  refine Finset.sum_congr rfl fun k _ => ?_
  rw [lhsIdx_transposedRhs, rhsIdx_transposedRhs]

end Cert.MatmulTransposedRhs

end
-- ==== Proof.MatmulValue.lean ====
/-
  What the second call leaves in its result array. For a row tile i the eight points (i, 0) … (i, 7) run in a row:
  the accumulator starts at zero and gains, at point (i, j), the products over columns 512 j … 512 j + 511, so after
  point (i, j) its entry [r, k] is the sum over the first 512 (j + 1) columns of x[512 i + r, n] * w[k, n]. At j = 7
  that is the whole sum; the bias row is added and the tile written back. The sixteen tiles cover the result array.
-/
import proofs.«161157_j64330020159902_1_alg».proof.Proof.Gen.KernelIdeal.Launch
import proofs.«161157_j64330020159902_1_alg».proof.Proof.Gen.KernelIdeal.Skeleton
import proofs.«161157_j64330020159902_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«161157_j64330020159902_1_alg».proof.Proof.MatmulBody
import proofs.«161157_j64330020159902_1_alg».proof.Proof.Spec
import proofs.«161157_j64330020159902_1_alg».proof.Proof.LibMatmulTransposedRhs
import Idealize.ShloMosaic.Lib.ValueIdx
import Idealize.ShloMosaic.Lib.ValueLayout
import Idealize.ShloMosaic.Lib.Pipeline.Value
import Idealize.ShloMosaic.PureOps.Ideal.Laws
set_option maxRecDepth 16384

noncomputable section

namespace Cert.KernelIdeal.MatmulValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## The three payloads at an entry, over the extended reals -/

/-- The reset block is zero everywhere. -/
theorem pay1_apply (p : Fin 512) (k : Fin 4096) : k1_pay1 (F := Ideal) (ix2 p k) = 0 := by
  unfold k1_pay1
  rw [shapeCast_self]
  exact Ideal.ofBits_zero_f32

/-- One step: the accumulator's entry gains the products of row p of the x tile with row k of the weight strip, the
    512 columns contracted (the conversions between formats are the identity on the extended reals). -/
theorem pay2_apply (x : Vec Ideal S512x512 .f32) (w : Vec Ideal S4096x512 .bf16) (a : Vec Ideal S512x4096 .f32)
    (p : Fin 512) (k : Fin 4096) :
    k1_pay2 (F := Ideal) x w a (ix2 p k) = a (ix2 p k) + ∑ q : Fin 512, x (ix2 p q) * w (ix2 k q) := by
  unfold k1_pay2
  rw [shapeCast_self, shapeCast_self, shapeCast_self]
  rw [addf_apply]
  congr 1
  exact Cert.MatmulTransposedRhs.matmul_zero_apply (M := 512) (K := 512) (N := 4096) none _ _ p k

/-- The stored tile: the accumulator's entry plus the bias of its column. -/
theorem pay3_apply (a : Vec Ideal S512x4096 .f32) (b : Vec Ideal S1x4096 .f32) (p : Fin 512) (k : Fin 4096) :
    k1_pay3 (F := Ideal) a b (ix2 p k) = a (ix2 p k) + b (ix2 0 k) := by
  unfold k1_pay3
  rw [shapeCast_self, addf_apply]
  congr 1
  refine broadcastTo_apply _ _ _ _ fun d => ?_
  match d with
  | ⟨0, _⟩ => rfl
  | ⟨1, _⟩ => rfl

variable (V : (c : Dev nD) → (b : Ref sig .tc) → Buf (Elt Ideal) ((c : Thread nD τ).loc b))

/-! ## The tiles a point sees are pieces of the arrays -/

/-- The arrays the region found, and the tiles a point sees, under their literal types. -/
abbrev xArr (c : Dev nD) : Vec Ideal S8192x4096 .f32 := V c main_v10
abbrev wArr (c : Dev nD) : Vec Ideal S4096x4096 .bf16 := V c main_v9
abbrev bArr (c : Dev nD) : Vec Ideal S1x4096 .f32 := V c main_v8
abbrev xTile (c : Dev nD) (t : Fin cfg1.N) : Vec Ideal S512x512 .f32 := Matmul.iblk V c 0 t
abbrev wTile (c : Dev nD) (t : Fin cfg1.N) : Vec Ideal S4096x512 .bf16 := Matmul.iblk V c 1 t
abbrev bTile (c : Dev nD) (t : Fin cfg1.N) : Vec Ideal S1x4096 .f32 := Matmul.iblk V c 2 t

/-- Point t = 8 i + j: the x tile is block (i, j), the weight strip block (0, j), the bias block (0, 0), the result
    tile block (i, 0). -/
theorem idx_x : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)
theorem idx_w : ∀ t : Fin cfg1.N, win1_1.index t 0 = 0 ∧ win1_1.index t 1 = t.val % 8 :=
  (by decide +kernel : ∀ t : Fin grid1.N, win1_1.index t 0 = 0 ∧ win1_1.index t 1 = t.val % 8)
theorem idx_b : ∀ t : Fin cfg1.N, win1_2.index t 0 = 0 ∧ win1_2.index t 1 = 0 :=
  (by decide +kernel : ∀ t : Fin grid1.N, win1_2.index t 0 = 0 ∧ win1_2.index t 1 = 0)
theorem idx_o : ∀ t : Fin cfg1.N, win1_3.index t 0 = t.val / 8 ∧ win1_3.index t 1 = 0 :=
  (by decide +kernel : ∀ t : Fin grid1.N, win1_3.index t 0 = t.val / 8 ∧ win1_3.index t 1 = 0)

/-- Entry (p, q) of the x tile at point t is x[512 (t / 8) + p, 512 (t % 8) + q]. -/
theorem xTile_apply (c : Dev nD) (t : Fin cfg1.N) (p q : Fin 512) (r : Fin 8192) (n : Fin 4096)
    (hr : r.val = 512 * (t.val / 8) + p.val) (hn : n.val = 512 * (t.val % 8) + q.val) :
    xTile V c t (ix2 p q) = xArr V c (ix2 r n) := by
  have hi := idx_x t
  unfold xTile Matmul.iblk
  rw [View.read_apply]
  show V c main_v10 _ = V c main_v10 _
  congr 1
  funext a
  apply Fin.ext
  match a with
  | ⟨0, _⟩ => show win1_0.index t 0 * 512 + 1 * p.val = r.val; rw [hi.1]; omega
  | ⟨1, _⟩ => show win1_0.index t 1 * 512 + 1 * q.val = n.val; rw [hi.2]; omega

/-- Entry (k, q) of the weight strip at point t is w[k, 512 (t % 8) + q]. -/
theorem wTile_apply (c : Dev nD) (t : Fin cfg1.N) (k : Fin 4096) (q : Fin 512) (n : Fin 4096)
    (hn : n.val = 512 * (t.val % 8) + q.val) :
    wTile V c t (ix2 k q) = wArr V c (ix2 k n) := by
  have hi := idx_w t
  unfold wTile Matmul.iblk
  rw [View.read_apply]
  show V c main_v9 _ = V c main_v9 _
  congr 1
  funext a
  apply Fin.ext
  match a with
  | ⟨0, _⟩ => show win1_1.index t 0 * 4096 + 1 * k.val = k.val; rw [hi.1]; omega
  | ⟨1, _⟩ => show win1_1.index t 1 * 512 + 1 * q.val = n.val; rw [hi.2]; omega

/-- The bias tile is the bias row. -/
theorem bTile_apply (c : Dev nD) (t : Fin cfg1.N) (k : Fin 4096) :
    bTile V c t (ix2 0 k) = bArr V c (ix2 0 k) := by
  have hi := idx_b t
  unfold bTile Matmul.iblk
  rw [View.read_apply]
  show V c main_v8 _ = V c main_v8 _
  congr 1
  funext a
  apply Fin.ext
  match a with
  | ⟨0, _⟩ => show win1_2.index t 0 * 1 + 1 * 0 = 0; rw [hi.1]
  | ⟨1, _⟩ => show win1_2.index t 1 * 4096 + 1 * k.val = k.val; rw [hi.2]; omega

/-! ## The accumulator after a point -/

/-- The product x[r, q] * w[k, q], the row and the column given as natural numbers (zero outside the arrays). -/
def term (c : Dev nD) (r : ℕ) (k : Fin 4096) (q : ℕ) : EReal :=
  if h : r < 8192 ∧ q < 4096 then xArr V c (ix2 ⟨r, h.1⟩ ⟨q, h.2⟩) * wArr V c (ix2 k ⟨q, h.2⟩) else 0

theorem N128 : cfg1.N = 128 := N_1

/-- A product of tile entries at point t is the product of the array entries it stands for. -/
theorem tile_term (c : Dev nD) (t : Fin cfg1.N) (p : Fin 512) (k : Fin 4096) (q : Fin 512) :
    xTile V c t (ix2 p q) * wTile V c t (ix2 k q)
      = term V c (512 * (t.val / 8) + p.val) k (512 * (t.val % 8) + q.val) := by
  have ht : t.val < 128 := N128 ▸ t.isLt
  have hr : 512 * (t.val / 8) + p.val < 8192 := by omega
  have hn : 512 * (t.val % 8) + q.val < 4096 := by omega
  unfold term
  rw [dif_pos ⟨hr, hn⟩, xTile_apply V c t p q ⟨_, hr⟩ ⟨_, hn⟩ rfl rfl, wTile_apply V c t k q ⟨_, hn⟩ rfl]

/-- What one point adds to an entry of the accumulator: the products over its 512 columns. -/
theorem step_sum (c : Dev nD) (t : Fin cfg1.N) (p : Fin 512) (k : Fin 4096) :
    ∑ q : Fin 512, xTile V c t (ix2 p q) * wTile V c t (ix2 k q)
      = ∑ q ∈ Finset.range 512, term V c (512 * (t.val / 8) + p.val) k (512 * (t.val % 8) + q) := by
  rw [← Fin.sum_univ_eq_sum_range (fun q => term V c (512 * (t.val / 8) + p.val) k (512 * (t.val % 8) + q)) 512]
  exact Finset.sum_congr rfl fun q _ => tile_term V c t p k q

/-- The recursion of the accumulator, with the tiles under their literal types. -/
theorem accAt_zero (c : Dev nD) (hn : 0 < cfg1.N) :
    Matmul.accAt V c 0 hn = k1_pay2 (xTile V c ⟨0, hn⟩) (wTile V c ⟨0, hn⟩) (k1_pay1 (F := Ideal)) := rfl
theorem accAt_succ (c : Dev nD) (n : ℕ) (hn : n + 1 < cfg1.N) :
    Matmul.accAt V c (n + 1) hn
      = if (n + 1) % 8 = 0 then k1_pay2 (xTile V c ⟨n + 1, hn⟩) (wTile V c ⟨n + 1, hn⟩) (k1_pay1 (F := Ideal))
        else k1_pay2 (xTile V c ⟨n + 1, hn⟩) (wTile V c ⟨n + 1, hn⟩) (Matmul.accAt V c n (Nat.lt_of_succ_lt hn)) := rfl

/-- THE INVARIANT: after point n = 8 i + j the accumulator's entry (p, k) is the sum over the first 512 (j + 1)
    columns of x[512 i + p, q] * w[k, q]. -/
theorem acc_inv (c : Dev nD) (p : Fin 512) (k : Fin 4096) : ∀ (n : ℕ) (hn : n < cfg1.N),
    Matmul.accAt V c n hn (ix2 p k)
      = ∑ q ∈ Finset.range (512 * (n % 8 + 1)), term V c (512 * (n / 8) + p.val) k q
  | 0, hn => by
    rw [accAt_zero, pay2_apply, pay1_apply, zero_add, step_sum]
    exact Finset.sum_congr rfl fun q _ => by simp
  | n + 1, hn => by
    rw [accAt_succ]
    by_cases h0 : (n + 1) % 8 = 0
    · rw [if_pos h0, pay2_apply, pay1_apply, zero_add, step_sum]
      show ∑ q ∈ Finset.range 512, term V c (512 * ((n + 1) / 8) + p.val) k (512 * ((n + 1) % 8) + q) = _
      rw [h0]
      exact Finset.sum_congr rfl fun q _ => by simp
    · rw [if_neg h0, pay2_apply, acc_inv c p k n (Nat.lt_of_succ_lt hn), step_sum]
      show _ + ∑ q ∈ Finset.range 512, term V c (512 * ((n + 1) / 8) + p.val) k (512 * ((n + 1) % 8) + q) = _
      have e1 : (n + 1) / 8 = n / 8 := by omega
      have e2 : (n + 1) % 8 = n % 8 + 1 := by omega
      rw [e1, e2, show 512 * (n % 8 + 1 + 1) = 512 * (n % 8 + 1) + 512 from by omega, Finset.sum_range_add]

/-! ## The tile written back, and the cover -/

/-- Over all 4096 columns the natural-number sum is the inner product of row r of x with row k of w. -/
theorem sum_term_full (c : Dev nD) (r : Fin 8192) (k : Fin 4096) :
    ∑ q ∈ Finset.range 4096, term V c r.val k q = ∑ n : Fin 4096, xArr V c (ix2 r n) * wArr V c (ix2 k n) := by
  rw [Finset.sum_range]
  refine Finset.sum_congr rfl fun n _ => ?_
  unfold term
  rw [dif_pos ⟨r.isLt, n.isLt⟩]

/-- At the last of a row tile's eight points the stored tile's entry (p, k) is the result at row 512 (t / 8) + p. -/
theorem out_apply (c : Dev nD) (t : Fin cfg1.N) (ht : t.val % 8 = 7) (p : Fin 512) (k : Fin 4096) (r : Fin 8192)
    (hr : r.val = 512 * (t.val / 8) + p.val) :
    Matmul.outAt V c t (ix2 p k) = Cert.Spec.linear2 (xArr V c) (wArr V c) (bArr V c) (ix2 r k) := by
  show k1_pay3 (Matmul.accAt V c t.val t.isLt) (bTile V c t) (ix2 p k) = _
  rw [pay3_apply, acc_inv, bTile_apply, ht, ← hr, show 512 * (7 + 1) = 4096 from rfl, sum_term_full]
  rfl

/-- What a write-back writes is its block of the result. -/
theorem flushed_eq (c : Dev nD) (t : Fin cfg1.N) (hf : (cfg1.win 3).flush t = true) :
    (Matmul.dat (F := Ideal) V c).flushed 3 t
      = ((cfg1.win 3).blk t).view.read (Elt Ideal) (Cert.Spec.linear2 (V c main_v10) (V c main_v9) (V c main_v8)) := by
  have ht : t.val % 8 = 7 := (flush1_3 t).mp hf
  have hi := idx_o t
  have hlt : t.val < 128 := N128 ▸ t.isLt
  show (cfg1.win 3).cut (cfg1.grid.coords t) ((Matmul.dat (F := Ideal) V c).after 3 t) = _
  rw [Matmul.after_out]
  funext y
  rw [View.read_apply]
  show Matmul.outAt V c t y = _
  obtain ⟨p, k, rfl⟩ : ∃ (p : Fin 512) (k : Fin 4096), y = ix2 p k := ⟨y 0, y 1, eq_ix2 y⟩
  refine (out_apply V c t ht p k ⟨512 * (t.val / 8) + p.val, by omega⟩ rfl).trans ?_
  show Cert.Spec.linear2 (V c main_v10) (V c main_v9) (V c main_v8) _ = Cert.Spec.linear2 (V c main_v10) (V c main_v9) (V c main_v8) _
  congr 1
  funext a
  apply Fin.ext
  match a with
  | ⟨0, _⟩ => show 512 * (t.val / 8) + p.val = win1_3.index t 0 * 512 + 1 * p.val; rw [hi.1]; omega
  | ⟨1, _⟩ => show k.val = win1_3.index t 1 * 4096 + 1 * k.val; rw [hi.2]; omega

/-- Row r of the result lies in the tile of row block r / 512, written back at that block's last point. -/
theorem cover (i : S8192x4096.Idx) :
    ∃ t : Fin cfg1.N, (cfg1.win 3).flush t = true ∧ i ∈ ((cfg1.win 3).blk t).view.set := by
  have h0 : (i 0).val < 8192 := (i 0).isLt
  have h1 : (i 1).val < 4096 := (i 1).isLt
  have hN := N128
  have hlt : 8 * ((i 0).val / 512) + 7 < cfg1.N := by rw [hN]; omega
  have hi := idx_o ⟨8 * ((i 0).val / 512) + 7, hlt⟩
  refine ⟨⟨8 * ((i 0).val / 512) + 7, hlt⟩, (flush1_3 _).mpr (by show (8 * ((i 0).val / 512) + 7) % 8 = 7; omega), ?_⟩
  show i ∈ ((View.whole main_v11).slice (win1_3.rect ⟨8 * ((i 0).val / 512) + 7, hlt⟩)).set
  rw [View.set_slice_whole, Rect.mem_set_unit]
  intro a
  match a with
  | ⟨0, _⟩ =>
    show win1_3.index ⟨8 * ((i 0).val / 512) + 7, hlt⟩ 0 * 512 ≤ (i 0 : Nat)
      ∧ (i 0 : Nat) < win1_3.index ⟨8 * ((i 0).val / 512) + 7, hlt⟩ 0 * 512 + 512
    rw [hi.1]
    show (8 * ((i 0).val / 512) + 7) / 8 * 512 ≤ _ ∧ _ < (8 * ((i 0).val / 512) + 7) / 8 * 512 + 512
    omega
  | ⟨1, _⟩ =>
    show win1_3.index ⟨8 * ((i 0).val / 512) + 7, hlt⟩ 1 * 4096 ≤ (i 1 : Nat)
      ∧ (i 1 : Nat) < win1_3.index ⟨8 * ((i 0).val / 512) + 7, hlt⟩ 1 * 4096 + 4096
    rw [hi.2]
    omega

/-- After the 16 write-backs the result array is stage two's function of the arrays the region found. -/
theorem final_eq (c : Dev nD) :
    (Matmul.dat (F := Ideal) V c).arrAt 3 cfg1.N
      = Cert.Spec.linear2 (V c main_v10) (V c main_v9) (V c main_v8) :=
  (Matmul.dat (F := Ideal) V c).arrAt_eq_of_cover 3 (Cert.Spec.linear2 (V c main_v10) (V c main_v9) (V c main_v8))
    (fun t hf => flushed_eq V c t hf) cover

end Cert.KernelIdeal.MatmulValue

end
-- ==== Proof.KernelValue.lean ====
/-
  The program's result buffer, read off the run's last valuation, is the specification's function of the seven
  argument arrays. The host side only re-lays arrays out: the (4096, 64, 1) scales and zero points are spread over
  the 64 columns of each group (column n of the 4096 belongs to group n / 64), the three vectors become a row, a
  column and a row, x's two leading axes are merged (row 2048 b + s) and split again at the end. Between them the
  two calls leave stage one's and stage two's functions of what they were given.
-/
import proofs.«161157_j64330020159902_1_alg».proof.Proof.Gen.KernelIdeal.Launch
import proofs.«161157_j64330020159902_1_alg».proof.Proof.Gen.KernelIdeal.Skeleton
import proofs.«161157_j64330020159902_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«161157_j64330020159902_1_alg».proof.Proof.MainRun
import proofs.«161157_j64330020159902_1_alg».proof.Proof.DequantValue
import proofs.«161157_j64330020159902_1_alg».proof.Proof.MatmulValue
import proofs.«161157_j64330020159902_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
set_option maxRecDepth 16384

noncomputable section

namespace Cert.KernelIdeal.KernelValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.KernelIdeal.MainRun

variable (m : (ℓ : Loc nD τ sig) → Buf (Elt Ideal) ℓ)

/-! ## The host stretches, read at the buffers they write -/

/-- The closing reshape: the result buffer is the second call's result array re-laid out. -/
theorem W5_v12 (c : Dev nD) :
    (W5 (F := Ideal) m c (Proc.devRef .tc main_v12) : (⟨S4x2048x4096, .f32⟩ : BufTy).Contents (Elt Ideal))
      = shapeCast S4x2048x4096 (W4 (F := Ideal) m c (Proc.devRef .tc main_v11) : (⟨S8192x4096, .f32⟩ : BufTy).Contents (Elt Ideal))
          shapeCasts_S8192x4096_S4x2048x4096 := by
  show StableHlo.after hostOps2 (W4 m c) (Proc.devRef .tc main_v12) = _
  after_results; rfl

/-- The second call's result array is stage two's function of the three arrays it was entered with. -/
theorem W4_v11 (c : Dev nD) :
    (W4 (F := Ideal) m c (Proc.devRef .tc main_v11) : (⟨S8192x4096, .f32⟩ : BufTy).Contents (Elt Ideal))
      = Cert.Spec.linear2 (V3 m c main_v10) (V3 m c main_v9) (V3 m c main_v8) :=
  (W4_arr m c 3).trans (MatmulValue.final_eq (V3 m) c)

/-- The reshape between the calls: x's two leading axes merged. -/
theorem V3_v10 (c : Dev nD) :
    (V3 (F := Ideal) m c main_v10 : (⟨S8192x4096, .f32⟩ : BufTy).Contents (Elt Ideal))
      = shapeCast S8192x4096 (W2 (F := Ideal) m c (Proc.devRef .tc main_arg0) : (⟨S4x2048x4096, .f32⟩ : BufTy).Contents (Elt Ideal))
          shapeCasts_S4x2048x4096_S8192x4096 := by
  show StableHlo.after hostOps1 (W2 m c) (Proc.devRef .tc main_v10) = _
  after_results; rfl

theorem V3_v9 (c : Dev nD) : V3 (F := Ideal) m c main_v9 = W2 m c (Proc.devRef .tc main_v9) := by
  show StableHlo.after hostOps1 (W2 m c) (Proc.devRef .tc main_v9) = _
  after_results

theorem V3_v8 (c : Dev nD) : V3 (F := Ideal) m c main_v8 = W2 m c (Proc.devRef .tc main_v8) := by
  show StableHlo.after hostOps1 (W2 m c) (Proc.devRef .tc main_v8) = _
  after_results

/-- x is an argument: no host operation and no call writes it before the second call. -/
theorem W2_arg0 (c : Dev nD) : W2 (F := Ideal) m c (Proc.devRef .tc main_arg0) = m ((c : Thread nD τ).loc main_arg0) := by
  rw [W2_of_ne m c main_arg0 (by decide)]
  show StableHlo.after hostOps0 (W0 m c) (Proc.devRef .tc main_arg0) = _
  after_results

/-- The first call's result array is stage one's function of the five arrays it was entered with. -/
theorem W2_v9 (c : Dev nD) :
    (W2 (F := Ideal) m c (Proc.devRef .tc main_v9) : (⟨S4096x4096, .bf16⟩ : BufTy).Contents (Elt Ideal))
      = Cert.Spec.weight2 (V1 m c main_arg6) (V1 m c main_v2) (V1 m c main_v5) (V1 m c main_v6) (V1 m c main_v7) :=
  (W2_arr m c 5).trans (DequantValue.final_eq (V1 m) c)

/-- The bias as a row: written by the first stretch, untouched by the first call. -/
theorem W2_v8 (c : Dev nD) :
    (W2 (F := Ideal) m c (Proc.devRef .tc main_v8) : (⟨S1x4096, .f32⟩ : BufTy).Contents (Elt Ideal))
      = shapeCast S1x4096 (m ((c : Thread nD τ).loc main_arg5) : (⟨S4096, .f32⟩ : BufTy).Contents (Elt Ideal)) shapeCasts_S4096_S1x4096 := by
  rw [W2_of_ne m c main_v8 (by decide)]
  show StableHlo.after hostOps0 (W0 m c) (Proc.devRef .tc main_v8) = _
  after_results; rfl

/-- The quantised words are an argument. -/
theorem V1_arg6 (c : Dev nD) : V1 (F := Ideal) m c main_arg6 = m ((c : Thread nD τ).loc main_arg6) := by
  show StableHlo.after hostOps0 (W0 m c) (Proc.devRef .tc main_arg6) = _
  after_results

/-- The scales spread over their groups' columns: the unit axis dropped, a new axis of 64 added, the last two merged. -/
theorem V1_v2 (c : Dev nD) :
    (V1 (F := Ideal) m c main_v2 : (⟨S4096x4096, .f32⟩ : BufTy).Contents (Elt Ideal))
      = shapeCast S4096x4096 (broadcastInDim S4096x64x64 ![0, 1] bcast_S4096x64_S4096x64x64_0_1
          (shapeCast S4096x64 (m ((c : Thread nD τ).loc main_arg1) : (⟨S4096x64x1, .f32⟩ : BufTy).Contents (Elt Ideal)) shapeCasts_S4096x64x1_S4096x64))
          shapeCasts_S4096x64x64_S4096x4096 := by
  show StableHlo.after hostOps0 (W0 m c) (Proc.devRef .tc main_v2) = _
  after_results; rfl

/-- The zero points spread the same way. -/
theorem V1_v5 (c : Dev nD) :
    (V1 (F := Ideal) m c main_v5 : (⟨S4096x4096, .f32⟩ : BufTy).Contents (Elt Ideal))
      = shapeCast S4096x4096 (broadcastInDim S4096x64x64 ![0, 1] bcast_S4096x64_S4096x64x64_0_1
          (shapeCast S4096x64 (m ((c : Thread nD τ).loc main_arg2) : (⟨S4096x64x1, .f32⟩ : BufTy).Contents (Elt Ideal)) shapeCasts_S4096x64x1_S4096x64))
          shapeCasts_S4096x64x64_S4096x4096 := by
  show StableHlo.after hostOps0 (W0 m c) (Proc.devRef .tc main_v5) = _
  after_results; rfl

/-- The column factors as a row. -/
theorem V1_v6 (c : Dev nD) :
    (V1 (F := Ideal) m c main_v6 : (⟨S1x4096, .f32⟩ : BufTy).Contents (Elt Ideal))
      = shapeCast S1x4096 (m ((c : Thread nD τ).loc main_arg3) : (⟨S4096, .f32⟩ : BufTy).Contents (Elt Ideal)) shapeCasts_S4096_S1x4096 := by
  show StableHlo.after hostOps0 (W0 m c) (Proc.devRef .tc main_v6) = _
  after_results; rfl

/-- The row factors as a column. -/
theorem V1_v7 (c : Dev nD) :
    (V1 (F := Ideal) m c main_v7 : (⟨S4096x1, .f32⟩ : BufTy).Contents (Elt Ideal))
      = shapeCast S4096x1 (m ((c : Thread nD τ).loc main_arg4) : (⟨S4096, .f32⟩ : BufTy).Contents (Elt Ideal)) shapeCasts_S4096_S4096x1 := by
  show StableHlo.after hostOps0 (W0 m c) (Proc.devRef .tc main_v7) = _
  after_results; rfl

/-! ## The layout operations read at an index -/

/-- A (4096, 64, 1) array spread over the 64 columns of each group, read at (k, n): its entry at row k and group
    n / 64. Position k * 4096 + n of the (4096, 4096) array is position (k * 64 + n / 64) * 64 + n % 64 of the
    (4096, 64, 64) one, whose last axis the broadcast added. -/
theorem spread_apply (g : (⟨S4096x64x1, .f32⟩ : BufTy).Contents (Elt Ideal)) (k n : Fin 4096) :
    shapeCast S4096x4096 (broadcastInDim S4096x64x64 ![0, 1] bcast_S4096x64_S4096x64x64_0_1
        (shapeCast S4096x64 g shapeCasts_S4096x64x1_S4096x64)) shapeCasts_S4096x64x64_S4096x4096 (ix2 k n)
      = g (ix3 k (Cert.Spec.grp n) 0) := by
  have hn : n.val < 4096 := n.isLt
  have hk : k.val < 4096 := k.isLt
  rw [shapeCast_apply _ shapeCasts_S4096x64x64_S4096x4096 (ix2 k n) (ix3 k (Cert.Spec.grp n) (⟨n.val % 64, by omega⟩ : Fin 64))
    (by rw [Shape.rowMajor_val_three, Shape.rowMajor_val_two]
        show (k.val * 64 + n.val / 64) * 64 + n.val % 64 = k.val * 4096 + n.val
        omega)]
  rw [broadcastInDim_apply _ bcast_S4096x64_S4096x64x64_0_1 _ (ix3 k (Cert.Spec.grp n) (⟨n.val % 64, by omega⟩ : Fin 64))
    (ix2 k (Cert.Spec.grp n))
    (fun a => match a with
      | ⟨0, _⟩ => by show k.val = if (4096 : Nat) = 1 then 0 else k.val; rw [if_neg (by decide)]
      | ⟨1, _⟩ => by show n.val / 64 = if (64 : Nat) = 1 then 0 else n.val / 64; rw [if_neg (by decide)])]
  exact shapeCast_apply g shapeCasts_S4096x64x1_S4096x64 (ix2 k (Cert.Spec.grp n)) (ix3 k (Cert.Spec.grp n) 0)
    (by rw [Shape.rowMajor_val_three, Shape.rowMajor_val_two]
        show (k.val * 64 + n.val / 64) * 1 + 0 = k.val * 64 + n.val / 64
        omega)

/-- A vector as a row, read at (0, n). -/
theorem row_apply (v : (⟨S4096, .f32⟩ : BufTy).Contents (Elt Ideal)) (n : Fin 4096) :
    shapeCast S1x4096 v shapeCasts_S4096_S1x4096 (ix2 0 n) = v (ix1 n) :=
  shapeCast_apply v shapeCasts_S4096_S1x4096 (ix2 0 n) (ix1 n)
    (by rw [Shape.rowMajor_val_one, Shape.rowMajor_val_two]
        show n.val = 0 * 4096 + n.val
        omega)

/-- A vector as a column, read at (k, 0). -/
theorem col_apply (v : (⟨S4096, .f32⟩ : BufTy).Contents (Elt Ideal)) (k : Fin 4096) :
    shapeCast S4096x1 v shapeCasts_S4096_S4096x1 (ix2 k 0) = v (ix1 k) :=
  shapeCast_apply v shapeCasts_S4096_S4096x1 (ix2 k 0) (ix1 k)
    (by rw [Shape.rowMajor_val_one, Shape.rowMajor_val_two]
        show k.val = k.val * 1 + 0
        omega)

/-- The row of the merged (8192, 4096) array that holds x[b, s, ·]. -/
def rowOf (b : Fin 4) (s : Fin 2048) : Fin 8192 := ⟨2048 * b.val + s.val, by omega⟩

/-- x with its two leading axes merged, read at (2048 b + s, n). -/
theorem merge_apply (x : (⟨S4x2048x4096, .f32⟩ : BufTy).Contents (Elt Ideal)) (b : Fin 4) (s : Fin 2048) (n : Fin 4096) :
    shapeCast S8192x4096 x shapeCasts_S4x2048x4096_S8192x4096 (ix2 (rowOf b s) n) = x (ix3 b s n) :=
  shapeCast_apply x shapeCasts_S4x2048x4096_S8192x4096 (ix2 (rowOf b s) n) (ix3 b s n)
    (by rw [Shape.rowMajor_val_three, Shape.rowMajor_val_two]
        show (b.val * 2048 + s.val) * 4096 + n.val = (2048 * b.val + s.val) * 4096 + n.val
        omega)

/-- An (8192, 4096) array with its leading axis split, read at (b, s, k). -/
theorem split_apply (y : (⟨S8192x4096, .f32⟩ : BufTy).Contents (Elt Ideal)) (b : Fin 4) (s : Fin 2048) (k : Fin 4096) :
    shapeCast S4x2048x4096 y shapeCasts_S8192x4096_S4x2048x4096 (ix3 b s k) = y (ix2 (rowOf b s) k) :=
  shapeCast_apply y shapeCasts_S8192x4096_S4x2048x4096 (ix3 b s k) (ix2 (rowOf b s) k)
    (by rw [Shape.rowMajor_val_three, Shape.rowMajor_val_two]
        show (2048 * b.val + s.val) * 4096 + k.val = (b.val * 2048 + s.val) * 4096 + k.val
        omega)

/-! ## The two stages over the re-laid-out arguments are the specification -/

/-- Stage two over the merged x, stage one's weights and the bias row, its leading axis split again, is the result
    the specification names: entry (b, s, k) sits in row 2048 b + s, whose sum runs over x[b, s, ·] against
    W[k, ·]; the spread scale and zero point at (k, n) are those of row k and group n / 64. -/
theorem stages_eq (x : (⟨S4x2048x4096, .f32⟩ : BufTy).Contents (Elt Ideal))
    (sc zr : (⟨S4096x64x1, .f32⟩ : BufTy).Contents (Elt Ideal))
    (m1 m2 bs : (⟨S4096, .f32⟩ : BufTy).Contents (Elt Ideal))
    (q : (⟨S4096x4096, .i32⟩ : BufTy).Contents (Elt Ideal)) :
    shapeCast S4x2048x4096
        (Cert.Spec.linear2 (shapeCast S8192x4096 x shapeCasts_S4x2048x4096_S8192x4096)
          (Cert.Spec.weight2 q
            (shapeCast S4096x4096 (broadcastInDim S4096x64x64 ![0, 1] bcast_S4096x64_S4096x64x64_0_1
              (shapeCast S4096x64 sc shapeCasts_S4096x64x1_S4096x64)) shapeCasts_S4096x64x64_S4096x4096)
            (shapeCast S4096x4096 (broadcastInDim S4096x64x64 ![0, 1] bcast_S4096x64_S4096x64x64_0_1
              (shapeCast S4096x64 zr shapeCasts_S4096x64x1_S4096x64)) shapeCasts_S4096x64x64_S4096x4096)
            (shapeCast S1x4096 m1 shapeCasts_S4096_S1x4096)
            (shapeCast S4096x1 m2 shapeCasts_S4096_S4096x1))
          (shapeCast S1x4096 bs shapeCasts_S4096_S1x4096))
        shapeCasts_S8192x4096_S4x2048x4096
      = Cert.Spec.G x sc zr m1 m2 bs q := by
  funext i
  obtain ⟨b, s, k, rfl⟩ : ∃ (b : Fin 4) (s : Fin 2048) (k : Fin 4096), i = ix3 b s k := ⟨i 0, i 1, i 2, eq_ix3 i⟩
  rw [split_apply]
  unfold Cert.Spec.G Cert.Spec.linear2
  show (∑ n : Fin 4096, shapeCast S8192x4096 x shapeCasts_S4x2048x4096_S8192x4096 (ix2 (rowOf b s) n)
          * Cert.Spec.weight2 q _ _ _ _ (ix2 k n))
        + shapeCast S1x4096 bs shapeCasts_S4096_S1x4096 (ix2 0 k)
      = (∑ n : Fin 4096, x (ix3 b s n) * Cert.Spec.weight sc zr m1 m2 q k n) + bs (ix1 k)
  rw [row_apply]
  congr 1
  refine Finset.sum_congr rfl fun n _ => ?_
  rw [merge_apply]
  congr 1
  unfold Cert.Spec.weight2 Cert.Spec.weight
  show (Cert.Spec.ofInt (q (ix2 k n)) - shapeCast S4096x4096 _ shapeCasts_S4096x64x64_S4096x4096 (ix2 k n))
        * shapeCast S4096x4096 _ shapeCasts_S4096x64x64_S4096x4096 (ix2 k n)
        * shapeCast S4096x1 m2 shapeCasts_S4096_S4096x1 (ix2 k 0)
        * shapeCast S1x4096 m1 shapeCasts_S4096_S1x4096 (ix2 0 n) = _
  rw [spread_apply, spread_apply, col_apply, row_apply]
/-- The result buffer at the end of the run is the specification's function of the arguments as launched. -/
theorem result_eq (c : Dev nD) :
    W5 (F := Ideal) m c (Proc.devRef .tc main_v12)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [W5_v12, W4_v11, V3_v10, V3_v9, V3_v8, W2_arg0, W2_v9, W2_v8, V1_arg6, V1_v2, V1_v5, V1_v6, V1_v7]
  exact stages_eq _ _ _ _ _ _ _

end Cert.KernelIdeal.KernelValue

end
-- ==== Proof.RefValue.lean ====
/-
  The reference's result, read one operation at a time, is the specification's function of the arguments.
-/
import proofs.«161157_j64330020159902_1_alg».proof.Defs
import proofs.«161157_j64330020159902_1_alg».proof.Proof.Gen.ReferenceIdeal.Run
import proofs.«161157_j64330020159902_1_alg».proof.Proof.Gen.ReferenceIdeal.Read
import proofs.«161157_j64330020159902_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem
open Idealize.ShloMosaic.ValueIdx

/-- The row-major reading of column `n` of a 4096-wide row as (group, place in the group): the flattened position
    `k * 4096 + n` of a [4096, 4096] array is the position `(k * 64 + n / 64) * 64 + n % 64` of the [4096, 64, 64] one. -/
theorem idx6_eq (k n : Fin 4096) :
    Cert.ReferenceIdeal.Read.idx_main_v6 (ix2 k n) = ix3 k (Cert.Spec.grp n) (⟨n.val % 64, Nat.mod_lt _ (by decide)⟩ : Fin 64) :=
  funext fun a => Fin.ext (by
    have hk : k.val < 4096 := k.isLt
    have hn : n.val < 4096 := n.isLt
    match a with
    | ⟨0, _⟩ => show (k.val * 4096 + n.val) / 4096 = k.val; omega
    | ⟨1, _⟩ => show (k.val * 4096 + n.val) / 64 % 64 = n.val / 64; omega
    | ⟨2, _⟩ => show (k.val * 4096 + n.val) % 64 = n.val % 64; omega)

/-- And back: the entry (k, n / 64, n % 64) of the [4096, 64, 64] array is the entry (k, n) of the [4096, 4096] one. -/
theorem idx1_eq (k n : Fin 4096) :
    Cert.ReferenceIdeal.Read.idx_main_v1 (ix3 k (Cert.Spec.grp n) (⟨n.val % 64, Nat.mod_lt _ (by decide)⟩ : Fin 64)) = ix2 k n :=
  funext fun a => Fin.ext (by
    have hk : k.val < 4096 := k.isLt
    have hn : n.val < 4096 := n.isLt
    match a with
    | ⟨0, _⟩ => show ((k.val * 64 + n.val / 64) * 64 + n.val % 64) / 4096 = k.val; omega
    | ⟨1, _⟩ => show ((k.val * 64 + n.val / 64) * 64 + n.val % 64) % 4096 = n.val; omega)

/-- A scale or zero point is shared by the 64 places of its group. -/
theorem idx2_eq (k : Fin 4096) (g r : Fin 64) :
    Cert.ReferenceIdeal.Read.idx_main_v2 (ix3 k g r) = ix3 k g (0 : Fin 1) :=
  funext fun a => Fin.ext (by match a with | ⟨0, _⟩ => rfl | ⟨1, _⟩ => rfl | ⟨2, _⟩ => rfl)

theorem idx4_eq (k : Fin 4096) (g r : Fin 64) :
    Cert.ReferenceIdeal.Read.idx_main_v4 (ix3 k g r) = ix3 k g (0 : Fin 1) :=
  funext fun a => Fin.ext (by match a with | ⟨0, _⟩ => rfl | ⟨1, _⟩ => rfl | ⟨2, _⟩ => rfl)

/-- The row factor of entry (k, n) is the k-th. -/
theorem idx78_eq (k n : Fin 4096) :
    Cert.ReferenceIdeal.Read.idx_main_v7 (Cert.ReferenceIdeal.Read.idx_main_v8 (ix2 k n)) = ix1 k :=
  funext fun a => Fin.ext (by match a with | ⟨0, _⟩ => rfl)

/-- The column factor of entry (k, n) is the n-th. -/
theorem idx1011_eq (k n : Fin 4096) :
    Cert.ReferenceIdeal.Read.idx_main_v10 (Cert.ReferenceIdeal.Read.idx_main_v11 (ix2 k n)) = ix1 n :=
  funext fun a => Fin.ext (by match a with | ⟨0, _⟩ => rfl)

/-- The bias of entry (b, s, k) is the k-th. -/
theorem idx1415_eq (b : Fin 4) (s : Fin 2048) (k : Fin 4096) :
    Cert.ReferenceIdeal.Read.idx_main_v14 (Cert.ReferenceIdeal.Read.idx_main_v15 (ix3 b s k)) = ix1 k :=
  funext fun a => Fin.ext (by match a with | ⟨0, _⟩ => rfl)

/-- The contraction pairs x[b, s, n] with the weight entry (k, n). -/
theorem lidx_eq (b : Fin 4) (s : Fin 2048) (k n : Fin 4096) :
    Cert.ReferenceIdeal.Read.lidx_main_v13 (ix3 b s k) n = ix3 b s n :=
  funext fun a => Fin.ext (by match a with | ⟨0, _⟩ => rfl | ⟨1, _⟩ => rfl | ⟨2, _⟩ => rfl)

theorem ridx_eq (b : Fin 4) (s : Fin 2048) (k n : Fin 4096) :
    Cert.ReferenceIdeal.Read.ridx_main_v13 (ix3 b s k) n = ix2 k n :=
  funext fun a => Fin.ext (by match a with | ⟨0, _⟩ => rfl | ⟨1, _⟩ => rfl)

/-- The reference's weight array (its twelfth stage) at entry (k, n) is the specification's weight: the word of (k, n)
    as a signed integer, minus the zero point and times the scale of the group n / 64 of row k, times the row factor of
    k, times the column factor of n. -/
theorem weight_eq (x1 x2 : (⟨Cert.ReferenceIdeal.S4096x64x1, .f32⟩ : BufTy).Contents (Elt Ideal))
    (x3 x4 : (⟨Cert.ReferenceIdeal.S4096, .f32⟩ : BufTy).Contents (Elt Ideal))
    (x6 : (⟨Cert.ReferenceIdeal.S4096x4096, .i32⟩ : BufTy).Contents (Elt Ideal)) (k n : Fin 4096) :
    Cert.ReferenceIdeal.Read.val_main_v12 (F := Ideal) x1 x2 x3 x4 x6 (ix2 k n) = Cert.Spec.weight x1 x2 x3 x4 x6 k n := by
  rw [Cert.ReferenceIdeal.Read.val_main_v12_apply, Cert.ReferenceIdeal.Read.val_main_v9_apply,
    Cert.ReferenceIdeal.Read.val_main_v11_apply, Cert.ReferenceIdeal.Read.val_main_v10_apply,
    Cert.ReferenceIdeal.Read.val_main_v6_apply, Cert.ReferenceIdeal.Read.val_main_v8_apply,
    Cert.ReferenceIdeal.Read.val_main_v7_apply, idx6_eq, Cert.ReferenceIdeal.Read.val_main_v5_apply,
    Cert.ReferenceIdeal.Read.val_main_v3_apply, Cert.ReferenceIdeal.Read.val_main_v4_apply,
    Cert.ReferenceIdeal.Read.val_main_v1_apply, Cert.ReferenceIdeal.Read.val_main_v2_apply,
    Cert.ReferenceIdeal.Read.val_main_v0_apply, idx1_eq, idx2_eq, idx4_eq, idx78_eq, idx1011_eq]
  rfl

/-- The reference's last stage, at Ideal, is the specification's function of the seven arguments (x, scales, zeros,
    mu1, mu2, bias, the quantised words), index by index. -/
theorem ref_eq (x0 : (⟨Cert.ReferenceIdeal.S4x2048x4096, .f32⟩ : BufTy).Contents (Elt Ideal))
    (x1 x2 : (⟨Cert.ReferenceIdeal.S4096x64x1, .f32⟩ : BufTy).Contents (Elt Ideal))
    (x3 x4 x5 : (⟨Cert.ReferenceIdeal.S4096, .f32⟩ : BufTy).Contents (Elt Ideal))
    (x6 : (⟨Cert.ReferenceIdeal.S4096x4096, .i32⟩ : BufTy).Contents (Elt Ideal)) :
    Cert.ReferenceIdeal.Read.val_main_v16 (F := Ideal) x0 x1 x2 x3 x4 x5 x6 = Cert.Spec.G x0 x1 x2 x3 x4 x5 x6 := by
  funext i
  obtain ⟨b, s, k, rfl⟩ : ∃ (b : Fin 4) (s : Fin 2048) (k : Fin 4096), i = ix3 b s k := ⟨i 0, i 1, i 2, eq_ix3 i⟩
  rw [Cert.ReferenceIdeal.Read.val_main_v16_apply, Cert.ReferenceIdeal.Read.val_main_v13_apply,
    Cert.ReferenceIdeal.Read.val_main_v15_apply, Cert.ReferenceIdeal.Read.val_main_v14_apply, idx1415_eq]
  show (∑ n : Fin 4096, x0 (Cert.ReferenceIdeal.Read.lidx_main_v13 (ix3 b s k) n)
      * Cert.ReferenceIdeal.Read.val_main_v12 (F := Ideal) x1 x2 x3 x4 x6 (Cert.ReferenceIdeal.Read.ridx_main_v13 (ix3 b s k) n))
      + x5 (ix1 k)
    = (∑ n : Fin 4096, x0 (ix3 b s n) * Cert.Spec.weight x1 x2 x3 x4 x6 k n) + x5 (ix1 k)
  refine congrArg (· + x5 (ix1 k)) (Finset.sum_congr rfl fun n _ => ?_)
  rw [lidx_eq, ridx_eq, weight_eq]

end Cert.ReferenceIdeal.RefValue

end
-- ==== Proof.lean ====
/-
  The certificate of the quantised linear layer: a dequantising call and a blocked matrix product on one core against
  the plain reference einsum('bsn,kn->bsk', x, W) + bias, with W[k, n] = ((q[k, n] - zero) * scale) * mu2[k] * mu1[n].
  Over the extended reals both programs end with out[b, s, k] = (sum over n of x[b, s, n] * W[k, n]) + bias[k]: the
  kernel's eight partial sums of 512 products per row tile are the whole sum regrouped, a format change is the identity,
  and the products are taken in the same order on both sides, so nothing beyond the commutative-monoid laws of + and the
  index arithmetic of the re-laid arrays is used, and the finiteness precondition is never opened.
  Frames: the run of the two calls among the host stretches is followed buffer by buffer (MainRun and, for the word-level
  program, its copy); no stretch writes an argument. The reference's frame is its run with the result dropped.
  The idealization rewrote nothing, so its ledger is empty and `preserves` is `True`.
-/
import proofs.«161157_j64330020159902_1_alg».proof.Defs
import proofs.«161157_j64330020159902_1_alg».proof.Proof.Gen.Kernel
import proofs.«161157_j64330020159902_1_alg».proof.Proof.Gen.KernelIdeal
import proofs.«161157_j64330020159902_1_alg».proof.Proof.Gen.ReferenceIdeal
import proofs.«161157_j64330020159902_1_alg».proof.Proof.Gen.Pre_finite_inputs
import proofs.«161157_j64330020159902_1_alg».proof.Proof.Gen.ReferenceIdeal.Run
import proofs.«161157_j64330020159902_1_alg».proof.Proof.Gen.ReferenceIdeal.Read
import proofs.«161157_j64330020159902_1_alg».proof.Proof.BitsMainRun
import proofs.«161157_j64330020159902_1_alg».proof.Proof.MainRun
import proofs.«161157_j64330020159902_1_alg».proof.Proof.KernelValue
import proofs.«161157_j64330020159902_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs to the end and leaves its seven arguments as launched: each is read off the run's last
    valuation, which no stretch of the program changes at an argument. -/
theorem frame_k : Cert.frame_Kernel := fun m ρ _ =>
  (θ_run Cert.Kernel.defs _ _).mono (fun r h c =>
    ⟨(h c _ (Cert.Kernel.MainRun.mem_uc Cert.Kernel.main_arg0 (by decide))).trans (Cert.Kernel.MainRun.W5_main_arg0 m c),
     (h c _ (Cert.Kernel.MainRun.mem_uc Cert.Kernel.main_arg1 (by decide))).trans (Cert.Kernel.MainRun.W5_main_arg1 m c),
     (h c _ (Cert.Kernel.MainRun.mem_uc Cert.Kernel.main_arg2 (by decide))).trans (Cert.Kernel.MainRun.W5_main_arg2 m c),
     (h c _ (Cert.Kernel.MainRun.mem_uc Cert.Kernel.main_arg3 (by decide))).trans (Cert.Kernel.MainRun.W5_main_arg3 m c),
     (h c _ (Cert.Kernel.MainRun.mem_uc Cert.Kernel.main_arg4 (by decide))).trans (Cert.Kernel.MainRun.W5_main_arg4 m c),
     (h c _ (Cert.Kernel.MainRun.mem_uc Cert.Kernel.main_arg5 (by decide))).trans (Cert.Kernel.MainRun.W5_main_arg5 m c),
     (h c _ (Cert.Kernel.MainRun.mem_uc Cert.Kernel.main_arg6 (by decide))).trans (Cert.Kernel.MainRun.W5_main_arg6 m c)⟩)
    (Cert.Kernel.MainRun.run_all (F := Bits) m ρ)

/-- The same for the idealized program. -/
theorem frame_ki : Cert.frame_KernelIdeal := fun m ρ _ =>
  (θ_run Cert.KernelIdeal.defs _ _).mono (fun r h c =>
    ⟨(h c _ (Cert.KernelIdeal.MainRun.mem_uc Cert.KernelIdeal.main_arg0 (by decide))).trans (Cert.KernelIdeal.MainRun.W5_main_arg0 m c),
     (h c _ (Cert.KernelIdeal.MainRun.mem_uc Cert.KernelIdeal.main_arg1 (by decide))).trans (Cert.KernelIdeal.MainRun.W5_main_arg1 m c),
     (h c _ (Cert.KernelIdeal.MainRun.mem_uc Cert.KernelIdeal.main_arg2 (by decide))).trans (Cert.KernelIdeal.MainRun.W5_main_arg2 m c),
     (h c _ (Cert.KernelIdeal.MainRun.mem_uc Cert.KernelIdeal.main_arg3 (by decide))).trans (Cert.KernelIdeal.MainRun.W5_main_arg3 m c),
     (h c _ (Cert.KernelIdeal.MainRun.mem_uc Cert.KernelIdeal.main_arg4 (by decide))).trans (Cert.KernelIdeal.MainRun.W5_main_arg4 m c),
     (h c _ (Cert.KernelIdeal.MainRun.mem_uc Cert.KernelIdeal.main_arg5 (by decide))).trans (Cert.KernelIdeal.MainRun.W5_main_arg5 m c),
     (h c _ (Cert.KernelIdeal.MainRun.mem_uc Cert.KernelIdeal.main_arg6 (by decide))).trans (Cert.KernelIdeal.MainRun.W5_main_arg6 m c)⟩)
    (Cert.KernelIdeal.MainRun.run_all (F := Ideal) m ρ)

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's function of the arguments: the kernel's result buffer by the
    run's last valuation read at it, the reference's by its run read one operation at a time; the arguments agree. -/
theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono (fun r h c =>
      ⟨(h c _ (Cert.KernelIdeal.MainRun.mem_uc Cert.KernelIdeal.main_v12 (by decide))).trans (Cert.KernelIdeal.KernelValue.result_eq m c),
       (h c _ (Cert.KernelIdeal.MainRun.mem_uc Cert.KernelIdeal.main_arg0 (by decide))).trans (Cert.KernelIdeal.MainRun.W5_main_arg0 m c),
       (h c _ (Cert.KernelIdeal.MainRun.mem_uc Cert.KernelIdeal.main_arg1 (by decide))).trans (Cert.KernelIdeal.MainRun.W5_main_arg1 m c),
       (h c _ (Cert.KernelIdeal.MainRun.mem_uc Cert.KernelIdeal.main_arg2 (by decide))).trans (Cert.KernelIdeal.MainRun.W5_main_arg2 m c),
       (h c _ (Cert.KernelIdeal.MainRun.mem_uc Cert.KernelIdeal.main_arg3 (by decide))).trans (Cert.KernelIdeal.MainRun.W5_main_arg3 m c),
       (h c _ (Cert.KernelIdeal.MainRun.mem_uc Cert.KernelIdeal.main_arg4 (by decide))).trans (Cert.KernelIdeal.MainRun.W5_main_arg4 m c),
       (h c _ (Cert.KernelIdeal.MainRun.mem_uc Cert.KernelIdeal.main_arg5 (by decide))).trans (Cert.KernelIdeal.MainRun.W5_main_arg5 m c),
       (h c _ (Cert.KernelIdeal.MainRun.mem_uc Cert.KernelIdeal.main_arg6 (by decide))).trans (Cert.KernelIdeal.MainRun.W5_main_arg6 m c)⟩)
      (Cert.KernelIdeal.MainRun.run_all (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2]
    exact (Cert.ReferenceIdeal.Read.val_main_v16_eq _ _ _ _ _ _ _).trans (Cert.ReferenceIdeal.RefValue.ref_eq _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
